-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x2 : Shape := ⟨2, ![2048, 2]⟩
abbrev S8x1408x2048 : Shape := ⟨3, ![8, 1408, 2048]⟩
abbrev S8x2048x1408 : Shape := ⟨3, ![8, 2048, 1408]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x2 : S_.BroadcastsInDim S2048x2 (![] : Fin 0 → Fin S2048x2.rank)
  reducesTo_S2048x2_S_d0_1 : S2048x2.ReducesTo [0, 1] S_
  bcast_S_S8x1408x2048 : S_.BroadcastsInDim S8x1408x2048 (![] : Fin 0 → Fin S8x1408x2048.rank)
  reducesTo_S8x1408x2048_S_d0_1_2 : S8x1408x2048.ReducesTo [0, 1, 2] S_
  bcast_S_S8x2048x1408 : S_.BroadcastsInDim S8x2048x1408 (![] : Fin 0 → Fin S8x2048x1408.rank)
  reducesTo_S8x2048x1408_S_d0_1_2 : S8x2048x1408.ReducesTo [0, 1, 2] S_

variable [Facts]

def fn_part1 {F : FTy → Type} [FloatOps F] (main_arg5 : FVec F S8x2048x1408 .f32) (main_v13 : IVec S_ 1) (main_v16 : IVec S8x1408x2048 1) : IVec S_ 1 :=
  let main_c_5 : IVec S_ 1 := constantI S_ 1 1#1
  let main_v17 : IVec S_ 1 := (fun x v => Host.reduce IntOp.andi x v reducesTo_S8x1408x2048_S_d0_1_2 h_S_) main_v16 main_c_5
  let main_v18 : IVec S_ 1 := andi main_v13 main_v17
  let main_v19 : FVec F S8x2048x1408 .f32 := Host.absf main_arg5
  let main_cst_6 : FVec F S_ .f32 := constant S_ .f32 0x7F800000#32
  let main_v20 : FVec F S8x2048x1408 .f32 := broadcastInDim S8x2048x1408 ![] bcast_S_S8x2048x1408 main_cst_6
  let main_v21 : IVec S8x2048x1408 1 := cmpf .olt main_v19 main_v20
  let main_c_7 : IVec S_ 1 := constantI S_ 1 1#1
  let main_v22 : IVec S_ 1 := (fun x v => Host.reduce IntOp.andi x v reducesTo_S8x2048x1408_S_d0_1_2 h_S_) main_v21 main_c_7
  let main_v23 : IVec S_ 1 := andi main_v18 main_v22
  main_v23

def fn {F : FTy → Type} [FloatOps F] (main_arg0 : FVec F S2048x2048 .f32) (main_arg1 : IVec S2048x2 32) (main_arg2 : FVec F S2048x2 .f32) (main_arg3 : FVec F S8x1408x2048 .f32) (main_arg4 : FVec F S8x1408x2048 .f32) (main_arg5 : FVec F S8x2048x1408 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2 .f32 := Host.absf main_arg2
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S8x1408x2048 .f32 := Host.absf main_arg3
  let main_cst_2 : FVec F S_ .f32 := constant S_ .f32 0x7F800000#32
  let main_v10 : FVec F S8x1408x2048 .f32 := broadcastInDim S8x1408x2048 ![] bcast_S_S8x1408x2048 main_cst_2
  let main_v11 : IVec S8x1408x2048 1 := cmpf .olt main_v9 main_v10
  let main_c_3 : IVec S_ 1 := constantI S_ 1 1#1
  let main_v12 : IVec S_ 1 := (fun x v => Host.reduce IntOp.andi x v reducesTo_S8x1408x2048_S_d0_1_2 h_S_) main_v11 main_c_3
  let main_v13 : IVec S_ 1 := andi main_v8 main_v12
  let main_v14 : FVec F S8x1408x2048 .f32 := Host.absf main_arg4
  let main_cst_4 : FVec F S_ .f32 := constant S_ .f32 0x7F800000#32
  let main_v15 : FVec F S8x1408x2048 .f32 := broadcastInDim S8x1408x2048 ![] bcast_S_S8x1408x2048 main_cst_4
  let main_v16 : IVec S8x1408x2048 1 := cmpf .olt main_v14 main_v15
  fn_part1 (F := F) main_arg5 main_v13 main_v16
-- ==== Kernel.lean ====
abbrev S2048x2048 : Shape := ⟨2, ![2048, 2048]⟩
abbrev S2048x2 : Shape := ⟨2, ![2048, 2]⟩
abbrev S8x1408x2048 : Shape := ⟨3, ![8, 1408, 2048]⟩
abbrev S8x2048x1408 : Shape := ⟨3, ![8, 2048, 1408]⟩
abbrev S4096 : Shape := ⟨1, ![4096]⟩
abbrev S2048 : Shape := ⟨1, ![2048]⟩
abbrev S_ : Shape := ⟨0, ![]⟩
abbrev S4096x1 : Shape := ⟨2, ![4096, 1]⟩
abbrev S8 : Shape := ⟨1, ![8]⟩
abbrev S1 : Shape := ⟨1, ![1]⟩
abbrev S7 : Shape := ⟨1, ![7]⟩
abbrev S4096x2048 : Shape := ⟨2, ![4096, 2048]⟩
abbrev S8x1024x2048 : Shape := ⟨3, ![8, 1024, 2048]⟩
abbrev S4096x2 : Shape := ⟨2, ![4096, 2]⟩
abbrev S1x128x2048 : Shape := ⟨3, ![1, 128, 2048]⟩
abbrev S1x1408x2048 : Shape := ⟨3, ![1, 1408, 2048]⟩
abbrev S1x2048x1408 : Shape := ⟨3, ![1, 2048, 1408]⟩
abbrev S128x2048 : Shape := ⟨2, ![128, 2048]⟩
abbrev S1408x2048 : Shape := ⟨2, ![1408, 2048]⟩
abbrev S2048x1408 : Shape := ⟨2, ![2048, 1408]⟩
abbrev S128x1408 : Shape := ⟨2, ![128, 1408]⟩

abbrev nBuf : Space → Nat
  | .hbm => 142
  | .vmem => 10
  | .smem => 0
  | _ => 0

abbrev hbmTy0_0 (i : Nat) : BufTy := match i % 128 with
  | 0 => ⟨S2048x2048, .f32⟩
  | 1 => ⟨S2048x2, .i32⟩
  | 2 => ⟨S2048x2, .f32⟩
  | 3 => ⟨S8x1408x2048, .f32⟩
  | 4 => ⟨S8x1408x2048, .f32⟩
  | 5 => ⟨S8x2048x1408, .f32⟩
  | 6 => ⟨S4096, .i32⟩
  | 7 => ⟨S4096, .f32⟩
  | 8 => ⟨S2048, .i32⟩
  | 9 => ⟨S2048x2, .i32⟩
  | 10 => ⟨S4096, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096, .i32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096, .f32⟩
  | 41 => ⟨S_, .i32⟩
  | 42 => ⟨S8, .i32⟩
  | 43 => ⟨S_, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S_, .i32⟩
  | 56 => ⟨S4096, .i32⟩
  | 57 => ⟨S8, .i32⟩
  | 58 => ⟨S_, .i32⟩
  | 59 => ⟨S1, .i32⟩
  | 60 => ⟨S_, .i32⟩
  | 61 => ⟨S_, .i32⟩
  | 62 => ⟨S8, .i32⟩
  | 63 => ⟨S7, .i32⟩
  | 64 => ⟨S8, .i32⟩
  | 65 => ⟨S4096, .i32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S4096, .i32⟩
  | 75 => ⟨S4096, .i32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S4096x1, .i32⟩
  | 84 => ⟨S4096x2048, .f32⟩
  | 85 => ⟨S4096x2048, .bf16⟩
  | 86 => ⟨S_, .bf16⟩
  | 87 => ⟨S8x1024x2048, .bf16⟩
  | 88 => ⟨S_, .i32⟩
  | 89 => ⟨S4096, .i32⟩
  | 90 => ⟨S4096, .i1⟩
  | 91 => ⟨S_, .i32⟩
  | 92 => ⟨S4096, .i32⟩
  | 93 => ⟨S4096, .i32⟩
  | 94 => ⟨S4096, .i32⟩
  | 95 => ⟨S_, .i32⟩
  | 96 => ⟨S4096, .i32⟩
  | 97 => ⟨S4096, .i1⟩
  | 98 => ⟨S_, .i32⟩
  | 99 => ⟨S4096, .i32⟩
  | 100 => ⟨S4096, .i32⟩
  | 101 => ⟨S4096, .i32⟩
  | 102 => ⟨S4096x1, .i32⟩
  | 103 => ⟨S4096x1, .i32⟩
  | 104 => ⟨S4096x2, .i32⟩
  | 105 => ⟨S8x1024x2048, .bf16⟩
  | 106 => ⟨S8x1408x2048, .bf16⟩
  | 107 => ⟨S8x1408x2048, .bf16⟩
  | 108 => ⟨S8x2048x1408, .bf16⟩
  | 109 => ⟨S8x1024x2048, .f32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S4096x1, .i32⟩
  | 126 => ⟨S4096x2, .i32⟩
  | 127 => ⟨S4096x2048, .f32⟩
  | _ => ⟨S2048x2048, .f32⟩

abbrev hbmTy0_1 (i : Nat) : BufTy := match i % 128 with
  | 0 => ⟨S4096x1, .f32⟩
  | 1 => ⟨S4096x2048, .f32⟩
  | 2 => ⟨S4096x2048, .f32⟩
  | 3 => ⟨S_, .f32⟩
  | 4 => ⟨S2048x2048, .f32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S2048x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | .local _ .vmem, ⟨0, _⟩ => ⟨S1x128x2048, .bf16⟩
  | .local _ .vmem, ⟨1, _⟩ => ⟨S1x128x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1x1408x2048, .bf16⟩
  | .local _ .vmem, ⟨5, _⟩ => ⟨S1x1408x2048, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S1x128x2048, .f32⟩
  | .local _ .vmem, ⟨9, _⟩ => ⟨S1x128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_call2_call0_c : Ref sig .tc := ⟨.hbm, 60, rfl⟩
abbrev main_call2_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_c_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst : Ref sig .tc := ⟨.hbm, 86, rfl⟩
abbrev main_v58 : Ref sig .tc := ⟨.hbm, 87, rfl⟩
abbrev main_c_15 : Ref sig .tc := ⟨.hbm, 88, rfl⟩
abbrev main_v59 : Ref sig .tc := ⟨.hbm, 89, rfl⟩
abbrev main_v60 : Ref sig .tc := ⟨.hbm, 90, rfl⟩
abbrev main_c_16 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_17 : Ref sig .tc := ⟨.hbm, 95, rfl⟩
abbrev main_v64 : Ref sig .tc := ⟨.hbm, 96, rfl⟩
abbrev main_v65 : Ref sig .tc := ⟨.hbm, 97, rfl⟩
abbrev main_c_18 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_21 : Ref sig .tc := ⟨.hbm, 117, rfl⟩
abbrev main_v82 : Ref sig .tc := ⟨.hbm, 118, rfl⟩
abbrev main_v83 : Ref sig .tc := ⟨.hbm, 119, rfl⟩
abbrev main_c_22 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_23 : Ref sig .tc := ⟨.hbm, 131, rfl⟩
abbrev main_v94 : Ref sig .tc := ⟨.hbm, 132, rfl⟩
abbrev main_c_24 : Ref sig .tc := ⟨.hbm, 133, rfl⟩
abbrev main_v95 : Ref sig .tc := ⟨.hbm, 134, rfl⟩
abbrev main_v96 : Ref sig .tc := ⟨.hbm, 135, rfl⟩
abbrev main_c_25 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2048x2_S4096 : S2048x2.ShapeCasts S4096
  bcast_S2048_S2048x2_0 : S2048.BroadcastsInDim S2048x2 (![0] : Fin 1 → Fin S2048x2.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S8 : S_.BroadcastsInDim S8 (![] : Fin 0 → Fin S8.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  slices_S8_S7_0 : S8.Slices ![0] S7
  concatenates_S1_S7_S8_d0 : Shape.Concatenates [S1, S7] S8 0
  bitsLt_bf16_f32 : FTy.bits .bf16 < FTy.bits .f32
  bcast_S_S8x1024x2048 : S_.BroadcastsInDim S8x1024x2048 (![] : Fin 0 → Fin S8x1024x2048.rank)
  concatenates_S4096x1_S4096x1_S4096x2_d1 : Shape.Concatenates [S4096x1, S4096x1] S4096x2 1
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x1408x2048_S1x1408x2048_0_0_0 : ∀ a, (![0, 0, 0] : Fin 3 → Nat) a + S1x1408x2048.size a ≤ S1x1408x2048.size a
  h_S1x1408x2048 : 0 < S1x1408x2048.numel
  shapeCasts_S1x1408x2048_S1408x2048 : S1x1408x2048.ShapeCasts S1408x2048
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  shapeCasts_S128x2048_S1x128x2048 : S128x2048.ShapeCasts S1x128x2048
  bcast_S4096x1_S4096x2048_0_1 : S4096x1.BroadcastsInDim S4096x2048 (![0, 1] : Fin 2 → Fin S4096x2048.rank)
  bcast_S_S2048x2048 : S_.BroadcastsInDim S2048x2048 (![] : Fin 0 → Fin S2048x2048.rank)
  gather_S4096_S4096x1_S4096_n_0_n_n_0_1_1_wf : GatherDims.WF S4096 S4096x1 S4096 [] [0] [] [0] [] 1 ![1]
  scatter_S8_S4096x1_S4096_n_0_0_1_wf : ScatterDims.WF S8 S4096x1 S4096 [] [0] [0] 1
  gather_S8_S4096x1_S4096_n_0_n_n_0_1_1_wf : GatherDims.WF S8 S4096x1 S4096 [] [0] [] [0] [] 1 ![1]
  gather_S2048x2048_S4096x1_S4096x2048_1_0_n_n_0_1_12048_wf : GatherDims.WF S2048x2048 S4096x1 S4096x2048 [1] [0] [] [0] [] 1 ![1, 2048]
  scatter_S8x1024x2048_S4096x2_S4096x2048_1_01_01_1_wf : ScatterDims.WF S8x1024x2048 S4096x2 S4096x2048 [1] [0, 1] [0, 1] 1
  dot_S128x2048_S1408x2048_S128x1408_1_1_0_0_n_n_wf : DotDims.WF S128x2048 S1408x2048 S128x1408 [1] [1] [0] [0] [] []
  dot_S128x1408_S2048x1408_S128x2048_1_1_0_0_n_n_wf : DotDims.WF S128x1408 S2048x1408 S128x2048 [1] [1] [0] [0] [] []
  gather_S8x1024x2048_S4096x2_S4096x2048_1_01_n_n_01_1_112048_wf : GatherDims.WF S8x1024x2048 S4096x2 S4096x2048 [1] [0, 1] [] [0, 1] [] 1 ![1, 1, 2048]
  scatter_S2048x2048_S4096x1_S4096x2048_1_0_0_1_wf : ScatterDims.WF S2048x2048 S4096x1 S4096x2048 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S8x1024x2048.size a
  hwx0_0 : ∀ i : grid0.Coords, EltTy.bits .bf16 = 32 ∨ (Rect.block (s := S8x1024x2048) S1x128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1408x2048.size a ≤ S8x1408x2048.size a
  hwx0_1 : ∀ i : grid0.Coords, EltTy.bits .bf16 = 32 ∨ (Rect.block (s := S8x1408x2048) S1x1408x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1408x2048.size a ≤ S8x1408x2048.size a
  hwx0_2 : ∀ i : grid0.Coords, EltTy.bits .bf16 = 32 ∨ (Rect.block (s := S8x1408x2048) S1x1408x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1408.size a ≤ S8x2048x1408.size a
  hwx0_3 : ∀ i : grid0.Coords, EltTy.bits .bf16 = 32 ∨ (Rect.block (s := S8x2048x1408) S1x2048x1408.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S8x1024x2048.size a
  hwx0_4 : ∀ i : grid0.Coords, EltTy.bits .f32 = 32 ∨ (Rect.block (s := S8x1024x2048) S1x128x2048.size (cc0_transform_4 i) (hinb0_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def scatter_S8_S4096x1_S4096_n_0_0_1 : ScatterDims S8 S4096x1 S4096 where
  updateWindowDims := []
  insertedWindowDims := [0]
  scatterDimsToOperandDims := [0]
  indexVectorDim := 1
  wf := scatter_S8_S4096x1_S4096_n_0_0_1_wf
def gather_S8_S4096x1_S4096_n_0_n_n_0_1_1 : GatherDims S8 S4096x1 S4096 where
  offsetDims := []
  collapsedSliceDims := [0]
  operandBatchingDims := []
  startIndicesBatchingDims := []
  startIndexMap := [0]
  indexVectorDim := 1
  sliceSizes := ![1]
  wf := gather_S8_S4096x1_S4096_n_0_n_n_0_1_1_wf
def gather_S2048x2048_S4096x1_S4096x2048_1_0_n_n_0_1_12048 : GatherDims S2048x2048 S4096x1 S4096x2048 where
  offsetDims := [1]
  collapsedSliceDims := [0]
  operandBatchingDims := []
  startIndicesBatchingDims := []
  startIndexMap := [0]
  indexVectorDim := 1
  sliceSizes := ![1, 2048]
  wf := gather_S2048x2048_S4096x1_S4096x2048_1_0_n_n_0_1_12048_wf
def scatter_S8x1024x2048_S4096x2_S4096x2048_1_01_01_1 : ScatterDims S8x1024x2048 S4096x2 S4096x2048 where
  updateWindowDims := [1]
  insertedWindowDims := [0, 1]
  scatterDimsToOperandDims := [0, 1]
  indexVectorDim := 1
  wf := scatter_S8x1024x2048_S4096x2_S4096x2048_1_01_01_1_wf
def dot_S128x2048_S1408x2048_S128x1408_1_1_0_0_n_n : DotDims S128x2048 S1408x2048 S128x1408 where
  lhsContracting := [1]
  rhsContracting := [1]
  lhsNonContracting := [0]
  rhsNonContracting := [0]
  lhsBatch := []
  rhsBatch := []
  wf := dot_S128x2048_S1408x2048_S128x1408_1_1_0_0_n_n_wf
def dot_S128x1408_S2048x1408_S128x2048_1_1_0_0_n_n : DotDims S128x1408 S2048x1408 S128x2048 where
  lhsContracting := [1]
  rhsContracting := [1]
  lhsNonContracting := [0]
  rhsNonContracting := [0]
  lhsBatch := []
  rhsBatch := []
  wf := dot_S128x1408_S2048x1408_S128x2048_1_1_0_0_n_n_wf
def gather_S8x1024x2048_S4096x2_S4096x2048_1_01_n_n_01_1_112048 : GatherDims S8x1024x2048 S4096x2 S4096x2048 where
  offsetDims := [1]
  collapsedSliceDims := [0, 1]
  operandBatchingDims := []
  startIndicesBatchingDims := []
  startIndexMap := [0, 1]
  indexVectorDim := 1
  sliceSizes := ![1, 1, 2048]
  wf := gather_S8x1024x2048_S4096x2_S4096x2048_1_01_n_n_01_1_112048_wf
def scatter_S2048x2048_S4096x1_S4096x2048_1_0_0_1 : ScatterDims S2048x2048 S4096x1 S4096x2048 where
  updateWindowDims := [1]
  insertedWindowDims := [0]
  scatterDimsToOperandDims := [0]
  indexVectorDim := 1
  wf := scatter_S2048x2048_S4096x1_S4096x2048_1_0_0_1_wf

abbrev win0_0 : Pipeline.Window sig grid0 :=
  Pipeline.Window.ofSpec (Memref.whole main_v72) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v73) S1x1408x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v74) S1x1408x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v75) S1x2048x1408.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v76) S1x128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S2048x2 : Shape := ⟨2, ![2048, 2]⟩
abbrev S8x1408x2048 : Shape := ⟨3, ![8, 1408, 2048]⟩
abbrev S8x2048x1408 : Shape := ⟨3, ![8, 2048, 1408]⟩
abbrev S4096 : Shape := ⟨1, ![4096]⟩
abbrev S2048 : Shape := ⟨1, ![2048]⟩
abbrev S_ : Shape := ⟨0, ![]⟩
abbrev S4096x1 : Shape := ⟨2, ![4096, 1]⟩
abbrev S8 : Shape := ⟨1, ![8]⟩
abbrev S1 : Shape := ⟨1, ![1]⟩
abbrev S7 : Shape := ⟨1, ![7]⟩
abbrev S8x1024x2048 : Shape := ⟨3, ![8, 1024, 2048]⟩
abbrev S4096x2048 : Shape := ⟨2, ![4096, 2048]⟩
abbrev S4096x2 : Shape := ⟨2, ![4096, 2]⟩
abbrev S8x1024x1408 : Shape := ⟨3, ![8, 1024, 1408]⟩

abbrev nBuf : Space → Nat
  | .hbm => 161
  | .vmem => 0
  | .smem => 0
  | _ => 0

abbrev hbmTy0_0 (i : Nat) : BufTy := match i % 128 with
  | 0 => ⟨S2048x2048, .f32⟩
  | 1 => ⟨S2048x2, .i32⟩
  | 2 => ⟨S2048x2, .f32⟩
  | 3 => ⟨S8x1408x2048, .f32⟩
  | 4 => ⟨S8x1408x2048, .f32⟩
  | 5 => ⟨S8x2048x1408, .f32⟩
  | 6 => ⟨S4096, .i32⟩
  | 7 => ⟨S4096, .f32⟩
  | 8 => ⟨S2048, .i32⟩
  | 9 => ⟨S2048x2, .i32⟩
  | 10 => ⟨S4096, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096, .i32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096, .f32⟩
  | 41 => ⟨S_, .i32⟩
  | 42 => ⟨S8, .i32⟩
  | 43 => ⟨S_, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S_, .i32⟩
  | 56 => ⟨S4096, .i32⟩
  | 57 => ⟨S8, .i32⟩
  | 58 => ⟨S_, .i32⟩
  | 59 => ⟨S1, .i32⟩
  | 60 => ⟨S_, .i32⟩
  | 61 => ⟨S_, .i32⟩
  | 62 => ⟨S8, .i32⟩
  | 63 => ⟨S7, .i32⟩
  | 64 => ⟨S8, .i32⟩
  | 65 => ⟨S4096, .i32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S4096, .i32⟩
  | 75 => ⟨S4096, .i32⟩
  | 76 => ⟨S_, .f32⟩
  | 77 => ⟨S8x1024x2048, .f32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S4096x2048, .f32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S4096x1, .i32⟩
  | 103 => ⟨S4096x2, .i32⟩
  | 104 => ⟨S8x1024x2048, .f32⟩
  | 105 => ⟨S8x1024x1408, .f32⟩
  | 106 => ⟨S_, .f32⟩
  | 107 => ⟨S8x1024x1408, .f32⟩
  | 108 => ⟨S8x1024x1408, .f32⟩
  | 109 => ⟨S8x1024x1408, .f32⟩
  | 110 => ⟨S_, .f32⟩
  | 111 => ⟨S_, .f32⟩
  | 112 => ⟨S_, .f32⟩
  | 113 => ⟨S8x1024x1408, .f32⟩
  | 114 => ⟨S8x1024x1408, .f32⟩
  | 115 => ⟨S_, .f32⟩
  | 116 => ⟨S8x1024x1408, .f32⟩
  | 117 => ⟨S8x1024x1408, .f32⟩
  | 118 => ⟨S8x1024x1408, .f32⟩
  | 119 => ⟨S8x1024x1408, .f32⟩
  | 120 => ⟨S_, .f32⟩
  | 121 => ⟨S8x1024x1408, .f32⟩
  | 122 => ⟨S8x1024x1408, .f32⟩
  | 123 => ⟨S_, .f32⟩
  | 124 => ⟨S8x1024x1408, .f32⟩
  | 125 => ⟨S8x1024x1408, .f32⟩
  | 126 => ⟨S8x1024x1408, .f32⟩
  | 127 => ⟨S8x1024x1408, .f32⟩
  | _ => ⟨S2048x2048, .f32⟩

abbrev hbmTy0_1 (i : Nat) : BufTy := match i % 128 with
  | 0 => ⟨S8x1024x2048, .f32⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096x1, .i32⟩
  | 17 => ⟨S4096x2, .i32⟩
  | 18 => ⟨S4096x2048, .f32⟩
  | 19 => ⟨S4096x1, .f32⟩
  | 20 => ⟨S4096x2048, .f32⟩
  | 21 => ⟨S4096x2048, .f32⟩
  | 22 => ⟨S_, .f32⟩
  | 23 => ⟨S2048x2048, .f32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S2048x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_call2_call0_c : Ref sig .tc := ⟨.hbm, 60, rfl⟩
abbrev main_call2_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst : Ref sig .tc := ⟨.hbm, 76, rfl⟩
abbrev main_v50 : Ref sig .tc := ⟨.hbm, 77, rfl⟩
abbrev main_c_13 : Ref sig .tc := ⟨.hbm, 78, rfl⟩
abbrev main_v51 : Ref sig .tc := ⟨.hbm, 79, rfl⟩
abbrev main_v52 : Ref sig .tc := ⟨.hbm, 80, rfl⟩
abbrev main_c_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_15 : Ref sig .tc := ⟨.hbm, 87, rfl⟩
abbrev main_v58 : Ref sig .tc := ⟨.hbm, 88, rfl⟩
abbrev main_v59 : Ref sig .tc := ⟨.hbm, 89, rfl⟩
abbrev main_c_16 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_17 : Ref sig .tc := ⟨.hbm, 94, rfl⟩
abbrev main_v63 : Ref sig .tc := ⟨.hbm, 95, rfl⟩
abbrev main_v64 : Ref sig .tc := ⟨.hbm, 96, rfl⟩
abbrev main_c_18 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_19 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_20 : Ref sig .tc := ⟨.hbm, 110, rfl⟩
abbrev main_cst_21 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_v76 : Ref sig .tc := ⟨.hbm, 117, rfl⟩
abbrev main_call4_v0 : Ref sig .tc := ⟨.hbm, 118, rfl⟩
abbrev main_call4_v1 : Ref sig .tc := ⟨.hbm, 119, rfl⟩
abbrev main_call4_cst : Ref sig .tc := ⟨.hbm, 120, rfl⟩
abbrev main_call4_v2 : Ref sig .tc := ⟨.hbm, 121, rfl⟩
abbrev main_call4_v3 : Ref sig .tc := ⟨.hbm, 122, rfl⟩
abbrev main_call4_cst_0 : Ref sig .tc := ⟨.hbm, 123, rfl⟩
abbrev main_call4_v4 : Ref sig .tc := ⟨.hbm, 124, rfl⟩
abbrev main_call4_v5 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_c_22 : Ref sig .tc := ⟨.hbm, 129, rfl⟩
abbrev main_v80 : Ref sig .tc := ⟨.hbm, 130, rfl⟩
abbrev main_v81 : Ref sig .tc := ⟨.hbm, 131, rfl⟩
abbrev main_c_23 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_c_24 : Ref sig .tc := ⟨.hbm, 136, rfl⟩
abbrev main_v85 : Ref sig .tc := ⟨.hbm, 137, rfl⟩
abbrev main_v86 : Ref sig .tc := ⟨.hbm, 138, rfl⟩
abbrev main_c_25 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_26 : Ref sig .tc := ⟨.hbm, 150, rfl⟩
abbrev main_v97 : Ref sig .tc := ⟨.hbm, 151, rfl⟩
abbrev main_c_27 : Ref sig .tc := ⟨.hbm, 152, rfl⟩
abbrev main_v98 : Ref sig .tc := ⟨.hbm, 153, rfl⟩
abbrev main_v99 : Ref sig .tc := ⟨.hbm, 154, rfl⟩
abbrev main_c_28 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩

abbrev nD : Nat := 1
abbrev τ : Topo := Topo.v7x

variable {F : FTy → Type} [FloatOps F]

class Facts₀ : Prop where
  shapeCasts_S2048x2_S4096 : S2048x2.ShapeCasts S4096
  bcast_S2048_S2048x2_0 : S2048.BroadcastsInDim S2048x2 (![0] : Fin 1 → Fin S2048x2.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S8 : S_.BroadcastsInDim S8 (![] : Fin 0 → Fin S8.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  slices_S8_S7_0 : S8.Slices ![0] S7
  concatenates_S1_S7_S8_d0 : Shape.Concatenates [S1, S7] S8 0
  bcast_S_S8x1024x2048 : S_.BroadcastsInDim S8x1024x2048 (![] : Fin 0 → Fin S8x1024x2048.rank)
  concatenates_S4096x1_S4096x1_S4096x2_d1 : Shape.Concatenates [S4096x1, S4096x1] S4096x2 1
  bcast_S_S8x1024x1408 : S_.BroadcastsInDim S8x1024x1408 (![] : Fin 0 → Fin S8x1024x1408.rank)
  bcast_S4096x1_S4096x2048_0_1 : S4096x1.BroadcastsInDim S4096x2048 (![0, 1] : Fin 2 → Fin S4096x2048.rank)
  bcast_S_S2048x2048 : S_.BroadcastsInDim S2048x2048 (![] : Fin 0 → Fin S2048x2048.rank)
  gather_S4096_S4096x1_S4096_n_0_n_n_0_1_1_wf : GatherDims.WF S4096 S4096x1 S4096 [] [0] [] [0] [] 1 ![1]
  scatter_S8_S4096x1_S4096_n_0_0_1_wf : ScatterDims.WF S8 S4096x1 S4096 [] [0] [0] 1
  gather_S8_S4096x1_S4096_n_0_n_n_0_1_1_wf : GatherDims.WF S8 S4096x1 S4096 [] [0] [] [0] [] 1 ![1]
  gather_S2048x2048_S4096x1_S4096x2048_1_0_n_n_0_1_12048_wf : GatherDims.WF S2048x2048 S4096x1 S4096x2048 [1] [0] [] [0] [] 1 ![1, 2048]
  scatter_S8x1024x2048_S4096x2_S4096x2048_1_01_01_1_wf : ScatterDims.WF S8x1024x2048 S4096x2 S4096x2048 [1] [0, 1] [0, 1] 1
  dot_S8x1024x2048_S8x1408x2048_S8x1024x1408_2_2_1_1_0_0_wf : DotDims.WF S8x1024x2048 S8x1408x2048 S8x1024x1408 [2] [2] [1] [1] [0] [0]
  dot_S8x1024x1408_S8x2048x1408_S8x1024x2048_2_2_1_1_0_0_wf : DotDims.WF S8x1024x1408 S8x2048x1408 S8x1024x2048 [2] [2] [1] [1] [0] [0]
  gather_S8x1024x2048_S4096x2_S4096x2048_1_01_n_n_01_1_112048_wf : GatherDims.WF S8x1024x2048 S4096x2 S4096x2048 [1] [0, 1] [] [0, 1] [] 1 ![1, 1, 2048]
  scatter_S2048x2048_S4096x1_S4096x2048_1_0_0_1_wf : ScatterDims.WF S2048x2048 S4096x1 S4096x2048 [1] [0] [0] 1

variable [Facts₀]

def comparator_i32_i32_d0 : BitVec 32 × BitVec 32 → BitVec 32 × BitVec 32 → BitVec 1 :=
  fun l r =>
    let v2 := IntOp.cmpi .slt l.1 r.1
    v2
def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def scatter_S8_S4096x1_S4096_n_0_0_1 : ScatterDims S8 S4096x1 S4096 where
  updateWindowDims := []
  insertedWindowDims := [0]
  scatterDimsToOperandDims := [0]
  indexVectorDim := 1
  wf := scatter_S8_S4096x1_S4096_n_0_0_1_wf
def gather_S8_S4096x1_S4096_n_0_n_n_0_1_1 : GatherDims S8 S4096x1 S4096 where
  offsetDims := []
  collapsedSliceDims := [0]
  operandBatchingDims := []
  startIndicesBatchingDims := []
  startIndexMap := [0]
  indexVectorDim := 1
  sliceSizes := ![1]
  wf := gather_S8_S4096x1_S4096_n_0_n_n_0_1_1_wf
def gather_S2048x2048_S4096x1_S4096x2048_1_0_n_n_0_1_12048 : GatherDims S2048x2048 S4096x1 S4096x2048 where
  offsetDims := [1]
  collapsedSliceDims := [0]
  operandBatchingDims := []
  startIndicesBatchingDims := []
  startIndexMap := [0]
  indexVectorDim := 1
  sliceSizes := ![1, 2048]
  wf := gather_S2048x2048_S4096x1_S4096x2048_1_0_n_n_0_1_12048_wf
def scatter_S8x1024x2048_S4096x2_S4096x2048_1_01_01_1 : ScatterDims S8x1024x2048 S4096x2 S4096x2048 where
  updateWindowDims := [1]
  insertedWindowDims := [0, 1]
  scatterDimsToOperandDims := [0, 1]
  indexVectorDim := 1
  wf := scatter_S8x1024x2048_S4096x2_S4096x2048_1_01_01_1_wf
def dot_S8x1024x2048_S8x1408x2048_S8x1024x1408_2_2_1_1_0_0 : DotDims S8x1024x2048 S8x1408x2048 S8x1024x1408 where
  lhsContracting := [2]
  rhsContracting := [2]
  lhsNonContracting := [1]
  rhsNonContracting := [1]
  lhsBatch := [0]
  rhsBatch := [0]
  wf := dot_S8x1024x2048_S8x1408x2048_S8x1024x1408_2_2_1_1_0_0_wf
def dot_S8x1024x1408_S8x2048x1408_S8x1024x2048_2_2_1_1_0_0 : DotDims S8x1024x1408 S8x2048x1408 S8x1024x2048 where
  lhsContracting := [2]
  rhsContracting := [2]
  lhsNonContracting := [1]
  rhsNonContracting := [1]
  lhsBatch := [0]
  rhsBatch := [0]
  wf := dot_S8x1024x1408_S8x2048x1408_S8x1024x2048_2_2_1_1_0_0_wf
def gather_S8x1024x2048_S4096x2_S4096x2048_1_01_n_n_01_1_112048 : GatherDims S8x1024x2048 S4096x2 S4096x2048 where
  offsetDims := [1]
  collapsedSliceDims := [0, 1]
  operandBatchingDims := []
  startIndicesBatchingDims := []
  startIndexMap := [0, 1]
  indexVectorDim := 1
  sliceSizes := ![1, 1, 2048]
  wf := gather_S8x1024x2048_S4096x2_S4096x2048_1_01_n_n_01_1_112048_wf
def scatter_S2048x2048_S4096x1_S4096x2048_1_0_0_1 : ScatterDims S2048x2048 S4096x1 S4096x2048 where
  updateWindowDims := [1]
  insertedWindowDims := [0]
  scatterDimsToOperandDims := [0]
  indexVectorDim := 1
  wf := scatter_S2048x2048_S4096x1_S4096x2048_1_0_0_1_wf

class Facts : Prop extends Facts₀ where

variable [Facts]
-- ==== Proof.KTail.lean ====
/-
  The kernel program after its region: thirty-two host operations gather each routed row's result out of the
  experts' output, weight it by the routing gate and add it into its token's row. Read back, the program's result
  is that combine of the region's output array and of four arrays the routing computed before the region
  (sorted expert ids, positions inside the expert's group, sorted token indices, sorted gates), which are left
  as they stand at the region's entry: nothing after the region writes them.
-/
import proofs.«139148_j89910845375253_1_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The routing index `x` made non-negative: where it is below zero, the extent `n` is added (an index counted from the
    array's end), elsewhere it is kept. -/
def wrap (n : BitVec 32) (x : (⟨S4096, .i32⟩ : BufTy).Contents (Elt F)) : (⟨S4096, .i32⟩ : BufTy).Contents (Elt F) :=
  select (cmpi .slt x (broadcastInDim S4096 ![] bcast_S_S4096 (constantI S_ 32 0#32)))
    (addi x (broadcastInDim S4096 ![] bcast_S_S4096 (constantI S_ 32 n))) x

/-- The combine: each routed row `s` fetches row `(eid s, pos s)` of the experts' output, is weighted by its gate,
    and is added into row `tok s` of a zero array — one function of the experts' output `d` and the four routing arrays. -/
def combine (d : (⟨S8x1024x2048, .f32⟩ : BufTy).Contents (Elt F)) (eid pos tok : (⟨S4096, .i32⟩ : BufTy).Contents (Elt F))
    (gate : (⟨S4096, .f32⟩ : BufTy).Contents (Elt F)) : (⟨S2048x2048, .f32⟩ : BufTy).Contents (Elt F) :=
  Host.scatterAdd scatter_S2048x2048_S4096x1_S4096x2048_1_0_0_1
    (broadcastInDim S2048x2048 ![] bcast_S_S2048x2048 (constant S_ .f32 0x00000000#32))
    (broadcastInDim S4096x1 ![0] bcast_S4096_S4096x1_0 (wrap 2048#32 tok))
    (mulf
      (Host.gather gather_S8x1024x2048_S4096x2_S4096x2048_1_01_n_n_01_1_112048 d
        (concatenate S4096x2 1 [⟨S4096x1, broadcastInDim S4096x1 ![0] bcast_S4096_S4096x1_0 (wrap 8#32 eid)⟩,
          ⟨S4096x1, broadcastInDim S4096x1 ![0] bcast_S4096_S4096x1_0 (wrap 1024#32 pos)⟩] concatenates_S4096x1_S4096x1_S4096x2_d1))
      (broadcastInDim S4096x2048 ![0, 1] bcast_S4096x1_S4096x2048_0_1 (broadcastInDim S4096x1 ![0] bcast_S4096_S4096x1_0 gate)))

/-- The lines after the region read back at the result buffer, from ANY contents: the combine of what stands in the
    region's output array and in the four routing arrays. -/
theorem tail_fold (W : Valuation τ sig (Elt F)) :
    after hostOps1 W (Proc.devRef .tc main_v101)
      = combine (W (Proc.devRef .tc main_v76)) (W (Proc.devRef .tc main_v12)) (W (Proc.devRef .tc main_v49))
          (W (Proc.devRef .tc main_v19)) (W (Proc.devRef .tc main_v26)) := by
  after_results_simp
  rfl

variable (m : (ℓ : Loc nD τ sig) → Buf (Elt F) ℓ)

/-- The result buffer after the lines that follow the region, from the region's exit contents: the output array is
    the pipeline's fifth array, and the routing arrays are no array of the pipeline, so they stand as at the entry. -/
theorem result_eq (c : Dev nD) :
    Pipeline.afterTail₀ cfgs (dats m) 0 (V0 m) [hostOps1] c main_v101
      = combine ((dats m 0 c).arrAt 4 cfg0.N) (V m c main_v12) (V m c main_v49) (V m c main_v19) (V m c main_v26) := by
  unfold Pipeline.afterTail₀
  simp only [List.flatten_cons, List.flatten_nil, List.append_nil]
  rw [tail_fold]
  have h76 := Pipeline.withArrays_arr (τ := τ) spec0 launch0.win.arr_inj c (V0 m c) (fun w => (dats m 0 c).arrAt w cfg0.N) 4
  have h12 := Pipeline.withArrays_of_ne (τ := τ) spec0 c (V0 m c) (fun w => (dats m 0 c).arrAt w cfg0.N) main_v12 (by decide)
  have h49 := Pipeline.withArrays_of_ne (τ := τ) spec0 c (V0 m c) (fun w => (dats m 0 c).arrAt w cfg0.N) main_v49 (by decide)
  have h19 := Pipeline.withArrays_of_ne (τ := τ) spec0 c (V0 m c) (fun w => (dats m 0 c).arrAt w cfg0.N) main_v19 (by decide)
  have h26 := Pipeline.withArrays_of_ne (τ := τ) spec0 c (V0 m c) (fun w => (dats m 0 c).arrAt w cfg0.N) main_v26 (by decide)
  exact congr (congr (congr (congr (congrArg combine h76) h12) h49) h19) h26

end Cert.KernelIdeal.Hand

end
-- ==== Proof.Spec.lean ====
/-
  What both programs compute between the dispatch and the combine, as ONE function of the per-expert token
  buffer and the three weight arrays, entry by entry over the extended reals.

  For expert `e`, buffer row `c` and hidden unit `n`, the gate and the up projections are the inner products of
  the row with the expert's weight rows,
      preRow (buf e c) (w e) n = Σ_k buf e c k · w e n k   (k over the 2048 model coordinates),
  the gate is clamped from above at ten and the up projection to [-ten, ten]; the hidden activation is
      act = (g · σ(g)) · u,      σ(x) = 1 / (1 + e^(-x)),
  and the result for model coordinate `j` is the inner product of the activations with the expert's down row,
      ffn buf gw uw dw e c j = Σ_n act e c n · dw e j n   (n over the 1408 hidden units).
  Ten and minus ten are kept as their binary words: the same words stand on both sides and are never evaluated.
  No law of the extended reals is used beyond what the sums are: each side contracts over the same index type
  in the same order, so nothing here asks an entry to be finite.
-/
import Idealize.ShloMosaic.PureOps.Ideal
import Idealize.ShloMosaic.Lib.ValueIdx

noncomputable section

namespace Cert.Spec

open Idealize.ShloMosaic

/-- The upper clamp, 10.0 as its binary32 word. -/
abbrev ten : EReal := Ideal.ofBits .f32 0x41200000#32
/-- The lower clamp, -10.0 as its binary32 word. -/
abbrev negTen : EReal := Ideal.ofBits .f32 0xC1200000#32

/-- One token row against one weight row per hidden unit: the projection before its clamp. -/
def preRow (row : Fin 2048 → EReal) (w : Fin 1408 → Fin 2048 → EReal) (n : Fin 1408) : EReal :=
  ∑ k : Fin 2048, row k * w n k

/-- The hidden activation of one token row: the gate projection clamped from above at ten, times its logistic,
    times the up projection clamped to [-ten, ten]. -/
def actRow (row : Fin 2048 → EReal) (gw uw : Fin 1408 → Fin 2048 → EReal) (n : Fin 1408) : EReal :=
  min (preRow row gw n) ten * Ideal.logistic (min (preRow row gw n) ten) * min ten (max negTen (preRow row uw n))

/-- One entry of the expert's output for one token row: the activations against one row of the down weights. -/
def ffnRow (row : Fin 2048 → EReal) (gw uw : Fin 1408 → Fin 2048 → EReal) (dwRow : Fin 1408 → EReal) : EReal :=
  ∑ n : Fin 1408, actRow row gw uw n * dwRow n

/-- The experts' output: entry (e, c, j) is the row form at expert e's slabs, buffer row (e, c) and down row (e, j). -/
def ffn (buf : Fin 8 → Fin 1024 → Fin 2048 → EReal) (gw uw : Fin 8 → Fin 1408 → Fin 2048 → EReal)
    (dw : Fin 8 → Fin 2048 → Fin 1408 → EReal) (e : Fin 8) (c : Fin 1024) (j : Fin 2048) : EReal :=
  ffnRow (buf e c) (gw e) (uw e) (dw e j)

/-- An array of rank three read by coordinates. -/
abbrev at3 {n0 n1 n2 : Nat} (x : (⟨3, ![n0, n1, n2]⟩ : Shape).Idx → EReal) (a : Fin n0) (b : Fin n1) (c : Fin n2) : EReal :=
  x (ValueIdx.ix3 a b c)

end Cert.Spec

end
-- ==== Proof.KPayload.lean ====
/-
  The kernel body's one stored value, entry by entry over the extended reals.

  The body loads a block of 128 token rows and the expert's three weight slabs, each with a leading axis of extent
  one that it drops. Both projections contract the 2048 model coordinates of a token row against a weight row
  (the device's product into a zero accumulator is the plain sum of products); the gate is clamped from above at ten,
  the up projection to [-ten, ten]; the activation is gate · logistic(gate) · up; its narrowing to the 16-bit format is
  the identity here; and the last product contracts the 1408 hidden units against a row of the down weights. So the
  stored entry (0, r, j) is the specification's row form at token row r of the block and down row j.
-/
import proofs.«139148_j89910845375253_1_alg».proof.Proof.Gen.KernelIdeal.Skeleton
import proofs.«139148_j89910845375253_1_alg».proof.Proof.Gen.KernelIdeal
import proofs.«139148_j89910845375253_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx

/-! ## The two contractions' operand indices, axis by axis

Both dimension-number records contract axis 1 of the left operand against axis 1 of the right one and keep axis 0 of
each: at output index (c, n) and contraction position k the left operand is read at (c, k) and the right one at (n, k).
Each coordinate is one branch of the definition of the operand index (a kept axis reads the output index, the
contracted axis reads the contraction position). -/

theorem projLhs_0 (i : S128x1408.Idx) (q : dot_S128x2048_S1408x2048_S128x1408_1_1_0_0_n_n.contr.Idx) :
    (dot_S128x2048_S1408x2048_S128x1408_1_1_0_0_n_n.lhsIdx i q 0).val = (i 0).val := by
  unfold DotDims.lhsIdx
  rw [dif_neg (show ¬(0 : Fin S128x2048.rank) ∈ dot_S128x2048_S1408x2048_S128x1408_1_1_0_0_n_n.lhsBatch by decide),
    dif_pos (show (0 : Fin S128x2048.rank) ∈ dot_S128x2048_S1408x2048_S128x1408_1_1_0_0_n_n.lhsNonContracting by decide)]
  rfl
theorem projLhs_1 (i : S128x1408.Idx) (q : dot_S128x2048_S1408x2048_S128x1408_1_1_0_0_n_n.contr.Idx) :
    (dot_S128x2048_S1408x2048_S128x1408_1_1_0_0_n_n.lhsIdx i q 1).val = (q ⟨0, by decide⟩).val :=
  dot_S128x2048_S1408x2048_S128x1408_1_1_0_0_n_n.lhsIdx_val_of_single rfl i q
theorem projRhs_0 (i : S128x1408.Idx) (q : dot_S128x2048_S1408x2048_S128x1408_1_1_0_0_n_n.contr.Idx) :
    (dot_S128x2048_S1408x2048_S128x1408_1_1_0_0_n_n.rhsIdx i q 0).val = (i 1).val := by
  unfold DotDims.rhsIdx
  rw [dif_neg (show ¬(0 : Fin S1408x2048.rank) ∈ dot_S128x2048_S1408x2048_S128x1408_1_1_0_0_n_n.rhsBatch by decide),
    dif_pos (show (0 : Fin S1408x2048.rank) ∈ dot_S128x2048_S1408x2048_S128x1408_1_1_0_0_n_n.rhsNonContracting by decide)]
  rfl
theorem projRhs_1 (i : S128x1408.Idx) (q : dot_S128x2048_S1408x2048_S128x1408_1_1_0_0_n_n.contr.Idx) :
    (dot_S128x2048_S1408x2048_S128x1408_1_1_0_0_n_n.rhsIdx i q 1).val = (q ⟨0, by decide⟩).val :=
  dot_S128x2048_S1408x2048_S128x1408_1_1_0_0_n_n.rhsIdx_val_of_single rfl i q

theorem downLhs_0 (i : S128x2048.Idx) (q : dot_S128x1408_S2048x1408_S128x2048_1_1_0_0_n_n.contr.Idx) :
    (dot_S128x1408_S2048x1408_S128x2048_1_1_0_0_n_n.lhsIdx i q 0).val = (i 0).val := by
  unfold DotDims.lhsIdx
  rw [dif_neg (show ¬(0 : Fin S128x1408.rank) ∈ dot_S128x1408_S2048x1408_S128x2048_1_1_0_0_n_n.lhsBatch by decide),
    dif_pos (show (0 : Fin S128x1408.rank) ∈ dot_S128x1408_S2048x1408_S128x2048_1_1_0_0_n_n.lhsNonContracting by decide)]
  rfl
theorem downLhs_1 (i : S128x2048.Idx) (q : dot_S128x1408_S2048x1408_S128x2048_1_1_0_0_n_n.contr.Idx) :
    (dot_S128x1408_S2048x1408_S128x2048_1_1_0_0_n_n.lhsIdx i q 1).val = (q ⟨0, by decide⟩).val :=
  dot_S128x1408_S2048x1408_S128x2048_1_1_0_0_n_n.lhsIdx_val_of_single rfl i q
theorem downRhs_0 (i : S128x2048.Idx) (q : dot_S128x1408_S2048x1408_S128x2048_1_1_0_0_n_n.contr.Idx) :
    (dot_S128x1408_S2048x1408_S128x2048_1_1_0_0_n_n.rhsIdx i q 0).val = (i 1).val := by
  unfold DotDims.rhsIdx
  rw [dif_neg (show ¬(0 : Fin S2048x1408.rank) ∈ dot_S128x1408_S2048x1408_S128x2048_1_1_0_0_n_n.rhsBatch by decide),
    dif_pos (show (0 : Fin S2048x1408.rank) ∈ dot_S128x1408_S2048x1408_S128x2048_1_1_0_0_n_n.rhsNonContracting by decide)]
  rfl
theorem downRhs_1 (i : S128x2048.Idx) (q : dot_S128x1408_S2048x1408_S128x2048_1_1_0_0_n_n.contr.Idx) :
    (dot_S128x1408_S2048x1408_S128x2048_1_1_0_0_n_n.rhsIdx i q 1).val = (q ⟨0, by decide⟩).val :=
  dot_S128x1408_S2048x1408_S128x2048_1_1_0_0_n_n.rhsIdx_val_of_single rfl i q

/-! ## Each product into the zero accumulator, read at an entry -/

/-- A projection into the zero accumulator at entry (c, n): the inner product, over the 2048 model coordinates, of row c of the left operand with row n of the right one. -/
theorem proj_apply (l : FVec Ideal S128x2048 .bf16) (w : FVec Ideal S1408x2048 .bf16) (c : Fin 128) (n : Fin 1408) :
    matmul (F := Ideal) dot_S128x2048_S1408x2048_S128x1408_1_1_0_0_n_n none l w (constant (F := Ideal) S128x1408 .f32 0x00000000#32) (ix2 c n)
      = ∑ k : Fin 2048, l (ix2 c k) * w (ix2 n k) := by
  refine (Ideal.matmul_constant_zero_apply dot_S128x2048_S1408x2048_S128x1408_1_1_0_0_n_n none l w (ix2 c n)).trans ?_
  rw [← Equiv.sum_comp (contrEquiv1 dot_S128x2048_S1408x2048_S128x1408_1_1_0_0_n_n 2048 rfl rfl).symm]
  refine Finset.sum_congr rfl fun k _ => ?_
  have hk := contrEquiv1_symm_val dot_S128x2048_S1408x2048_S128x1408_1_1_0_0_n_n 2048 rfl rfl k
  have el : dot_S128x2048_S1408x2048_S128x1408_1_1_0_0_n_n.lhsIdx (ix2 c n)
      ((contrEquiv1 dot_S128x2048_S1408x2048_S128x1408_1_1_0_0_n_n 2048 rfl rfl).symm k) = ix2 c k := funext fun ax => Fin.ext (by
    match ax with
    | ⟨0, _⟩ => exact projLhs_0 _ _
    | ⟨1, _⟩ => exact (projLhs_1 _ _).trans hk)
  have er : dot_S128x2048_S1408x2048_S128x1408_1_1_0_0_n_n.rhsIdx (ix2 c n)
      ((contrEquiv1 dot_S128x2048_S1408x2048_S128x1408_1_1_0_0_n_n 2048 rfl rfl).symm k) = ix2 n k := funext fun ax => Fin.ext (by
    match ax with
    | ⟨0, _⟩ => exact projRhs_0 _ _
    | ⟨1, _⟩ => exact (projRhs_1 _ _).trans hk)
  rw [el, er]

/-- The down product into the zero accumulator at entry (c, j): the inner product, over the 1408 hidden units, of row c of the left operand with row j of the right one. -/
theorem down_apply (l : FVec Ideal S128x1408 .bf16) (w : FVec Ideal S2048x1408 .bf16) (c : Fin 128) (j : Fin 2048) :
    matmul (F := Ideal) dot_S128x1408_S2048x1408_S128x2048_1_1_0_0_n_n none l w (constant (F := Ideal) S128x2048 .f32 0x00000000#32) (ix2 c j)
      = ∑ k : Fin 1408, l (ix2 c k) * w (ix2 j k) := by
  refine (Ideal.matmul_constant_zero_apply dot_S128x1408_S2048x1408_S128x2048_1_1_0_0_n_n none l w (ix2 c j)).trans ?_
  rw [← Equiv.sum_comp (contrEquiv1 dot_S128x1408_S2048x1408_S128x2048_1_1_0_0_n_n 1408 rfl rfl).symm]
  refine Finset.sum_congr rfl fun k _ => ?_
  have hk := contrEquiv1_symm_val dot_S128x1408_S2048x1408_S128x2048_1_1_0_0_n_n 1408 rfl rfl k
  have el : dot_S128x1408_S2048x1408_S128x2048_1_1_0_0_n_n.lhsIdx (ix2 c j)
      ((contrEquiv1 dot_S128x1408_S2048x1408_S128x2048_1_1_0_0_n_n 1408 rfl rfl).symm k) = ix2 c k := funext fun ax => Fin.ext (by
    match ax with
    | ⟨0, _⟩ => exact downLhs_0 _ _
    | ⟨1, _⟩ => exact (downLhs_1 _ _).trans hk)
  have er : dot_S128x1408_S2048x1408_S128x2048_1_1_0_0_n_n.rhsIdx (ix2 c j)
      ((contrEquiv1 dot_S128x1408_S2048x1408_S128x2048_1_1_0_0_n_n 1408 rfl rfl).symm k) = ix2 j k := funext fun ax => Fin.ext (by
    match ax with
    | ⟨0, _⟩ => exact downRhs_0 _ _
    | ⟨1, _⟩ => exact (downRhs_1 _ _).trans hk)
  rw [el, er]

/-! ## The body's value -/

/-- A projection of the loaded block against a loaded weight slab, both with their leading unit axis dropped, is the
    specification's projection of token row r against the slab's rows. -/
theorem pre_apply (x0 : Vec Ideal S1x128x2048 .bf16) (w : Vec Ideal S1x1408x2048 .bf16) (r : Fin 128) (n : Fin 1408) :
    matmul (F := Ideal) dot_S128x2048_S1408x2048_S128x1408_1_1_0_0_n_n none (shapeCast S128x2048 x0 shapeCasts_S1x128x2048_S128x2048 : FVec Ideal S128x2048 .bf16)
        (shapeCast S1408x2048 w shapeCasts_S1x1408x2048_S1408x2048 : FVec Ideal S1408x2048 .bf16)
        (constant (F := Ideal) S128x1408 .f32 0x00000000#32) (ix2 r n)
      = Cert.Spec.preRow (fun k => x0 (ix3 (0 : Fin 1) r k)) (fun n k => w (ix3 (0 : Fin 1) n k)) n := by
  refine (proj_apply _ _ r n).trans ?_
  unfold Cert.Spec.preRow
  refine Finset.sum_congr rfl fun k _ => ?_
  rw [shapeCast_1ab_ab_apply x0 shapeCasts_S1x128x2048_S128x2048 r k,
    shapeCast_1ab_ab_apply w shapeCasts_S1x1408x2048_S1408x2048 n k]

/-- The pointwise part, entry by entry: the gate clamped from above at ten, times its logistic, times the up projection
    clamped to [-ten, ten]; the narrowing to the 16-bit format is the identity on the extended reals. -/
theorem act_apply (g u : FVec Ideal S128x1408 .f32) (i : S128x1408.Idx) :
    (truncf .bf16
        (mulf
          (mulf (minimumf g (broadcast S128x1408 (Scalar.ofBits (F := Ideal) .f32 0x41200000#32)))
            (logistic (minimumf g (broadcast S128x1408 (Scalar.ofBits (F := Ideal) .f32 0x41200000#32)))))
          (minimumf (broadcast S128x1408 (Scalar.ofBits (F := Ideal) .f32 0x41200000#32))
            (maximumf (broadcast S128x1408 (Scalar.ofBits (F := Ideal) .f32 0xC1200000#32)) u)))
        bitsLt_bf16_f32 : FVec Ideal S128x1408 .bf16) i
      = min (g i) Cert.Spec.ten * Ideal.logistic (min (g i) Cert.Spec.ten)
          * min Cert.Spec.ten (max Cert.Spec.negTen (u i)) := rfl

/-- The body's stored value at row `r`, column `j` of the block is the row form of the specification. -/
theorem pay_value (x0 : Vec Ideal S1x128x2048 .bf16) (x1 x2 : Vec Ideal S1x1408x2048 .bf16) (x3 : Vec Ideal S1x2048x1408 .bf16)
    (r : Fin 128) (j : Fin 2048) :
    k0_pay1 (F := Ideal) x0 x1 x2 x3 (ValueIdx.ix3 (0 : Fin 1) r j)
      = Cert.Spec.ffnRow (fun k => x0 (ValueIdx.ix3 (0 : Fin 1) r k)) (fun n k => x1 (ValueIdx.ix3 (0 : Fin 1) n k))
          (fun n k => x2 (ValueIdx.ix3 (0 : Fin 1) n k)) (fun n => x3 (ValueIdx.ix3 (0 : Fin 1) j n)) := by
  unfold k0_pay1
  -- the leading unit axis put back on the result, then the down product at entry (r, j)
  refine (shapeCast_ab_1ab_apply _ shapeCasts_S128x2048_S1x128x2048 (0 : Fin 1) r j).trans ?_
  refine (down_apply _ _ r j).trans ?_
  unfold Cert.Spec.ffnRow
  refine Finset.sum_congr rfl fun n _ => ?_
  -- the down weights' row with its unit axis dropped; the activation entry by entry
  rw [shapeCast_1ab_ab_apply x3 shapeCasts_S1x2048x1408_S2048x1408 j n]
  refine congrArg (· * x3 (ix3 (0 : Fin 1) j n)) ?_
  refine (act_apply _ _ (ix2 r n)).trans ?_
  unfold Cert.Spec.actRow
  rw [pre_apply x0 x1 r n, pre_apply x0 x2 r n]

end Cert.KernelIdeal.Hand

end
-- ==== Proof.KRegion.lean ====
/-
  What the kernel's region leaves in its output array, entry by entry over the extended reals.

  The grid has 64 points, (expert e, capacity tile ci) with e, ci < 8. Point (e, ci) reads rows
  128·ci … 128·ci + 127 of expert e's slab of the token buffer and the whole of expert e's three weight slabs, and
  writes the same rows of expert e's slab of the output; the 64 output blocks tile the output array. Inside a block
  the body forms the two projections by contracting the 2048 model coordinates, clamps them, multiplies the
  gate's x · logistic(x) by the up projection and contracts the 1408 hidden units against the down weights: row by row
  this is the specification's `ffn` at (e, 128·ci + row). The narrowing of the activations to the 16-bit format is the
  identity over the extended reals.
-/
import proofs.«139148_j89910845375253_1_alg».proof.Proof.Gen.KernelIdeal.Frame
import proofs.«139148_j89910845375253_1_alg».proof.Proof.Spec
import proofs.«139148_j89910845375253_1_alg».proof.Proof.KPayload
import Idealize.ShloMosaic.PureOps.Ideal.Laws
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- Three zero offsets, however spelt. -/
theorem zero3 : (![0, 0, 0] : Fin 3 → Nat) = fun _ => 0 := funext fun a => by fin_cases a <;> rfl

/-- The five printed index maps over the grid: point t is (expert t / 8, capacity tile t % 8); the token and the
    output windows move with both, the three weight windows with the expert only. -/
theorem index_maps : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

/-! ## The arrays and the blocks, at their literal types -/

/-- The token buffer as the region finds it. -/
abbrev tokArr (c : Dev nD) : Vec Ideal S8x1024x2048 .bf16 := V m c main_v72
/-- The gate weights as the region finds them. -/
abbrev gateArr (c : Dev nD) : Vec Ideal S8x1408x2048 .bf16 := V m c main_v73
/-- The up weights as the region finds them. -/
abbrev upArr (c : Dev nD) : Vec Ideal S8x1408x2048 .bf16 := V m c main_v74
/-- The down weights as the region finds them. -/
abbrev downArr (c : Dev nD) : Vec Ideal S8x2048x1408 .bf16 := V m c main_v75

/-- The block of token rows at a point. -/
abbrev tokBlk (c : Dev nD) (t : Fin cfg0.N) : Vec Ideal S1x128x2048 .bf16 := iblk m c 0 t
/-- The gate slab at a point. -/
abbrev gateBlk (c : Dev nD) (t : Fin cfg0.N) : Vec Ideal S1x1408x2048 .bf16 := iblk m c 1 t
/-- The up slab at a point. -/
abbrev upBlk (c : Dev nD) (t : Fin cfg0.N) : Vec Ideal S1x1408x2048 .bf16 := iblk m c 2 t
/-- The down slab at a point. -/
abbrev downBlk (c : Dev nD) (t : Fin cfg0.N) : Vec Ideal S1x2048x1408 .bf16 := iblk m c 3 t

/-- The output array the region is to leave: the specification of the four arrays, entry by entry. -/
abbrev want (c : Dev nD) : Vec Ideal S8x1024x2048 .f32 := fun i =>
  Cert.Spec.ffn (Cert.Spec.at3 (tokArr m c)) (Cert.Spec.at3 (gateArr m c)) (Cert.Spec.at3 (upArr m c))
    (Cert.Spec.at3 (downArr m c)) (i 0) (i 1) (i 2)

/-! ## One block of rows of one expert -/

/-- If the four blocks are rows of expert e's slabs — the token block's row r being the buffer's row `row` — the body's
    stored value at (r, j) is the specification at (e, row, j): the row form's four arguments agree entry by entry. -/
theorem block_value (x0 : Vec Ideal S1x128x2048 .bf16) (x1 x2 : Vec Ideal S1x1408x2048 .bf16) (x3 : Vec Ideal S1x2048x1408 .bf16)
    (buf : Vec Ideal S8x1024x2048 .bf16) (gw uw : Vec Ideal S8x1408x2048 .bf16) (dw : Vec Ideal S8x2048x1408 .bf16)
    (e : Fin 8) (row : Fin 1024) (r : Fin 128) (j : Fin 2048)
    (h0 : ∀ k : Fin 2048, x0 (ValueIdx.ix3 (0 : Fin 1) r k) = buf (ValueIdx.ix3 e row k))
    (h1 : ∀ (n : Fin 1408) (k : Fin 2048), x1 (ValueIdx.ix3 (0 : Fin 1) n k) = gw (ValueIdx.ix3 e n k))
    (h2 : ∀ (n : Fin 1408) (k : Fin 2048), x2 (ValueIdx.ix3 (0 : Fin 1) n k) = uw (ValueIdx.ix3 e n k))
    (h3 : ∀ n : Fin 1408, x3 (ValueIdx.ix3 (0 : Fin 1) j n) = dw (ValueIdx.ix3 e j n)) :
    k0_pay1 (F := Ideal) x0 x1 x2 x3 (ValueIdx.ix3 (0 : Fin 1) r j)
      = Cert.Spec.ffn (Cert.Spec.at3 buf) (Cert.Spec.at3 gw) (Cert.Spec.at3 uw) (Cert.Spec.at3 dw) e row j := by
  rw [pay_value]
  show Cert.Spec.ffnRow _ _ _ _ = Cert.Spec.ffnRow (fun k => buf (ValueIdx.ix3 e row k)) (fun n k => gw (ValueIdx.ix3 e n k))
    (fun n k => uw (ValueIdx.ix3 e n k)) (fun n => dw (ValueIdx.ix3 e j n))
  rw [funext h0, funext fun n => funext (h1 n), funext fun n => funext (h2 n), funext h3]

/-! ## Each block read where the window's rectangle says -/

/-- Any array read through the token window's block at point t: row r of the block is row 128·(t % 8) + r of
    expert t / 8's slab. -/
theorem tok_read (t : Fin cfg0.N) (A : Vec Ideal S8x1024x2048 .bf16) (e : Fin 8) (row : Fin 1024) (r : Fin 128) (k : Fin 2048)
    (he : e.val = t.val / 8) (hrow : row.val = 128 * (t.val % 8) + r.val) :
    (((cfg0.win 0).blk t).view.read (Elt Ideal) A : Vec Ideal S1x128x2048 .bf16) (ValueIdx.ix3 (0 : Fin 1) r k) = A (ValueIdx.ix3 e row k) := by
  obtain ⟨i0, i1, i2, -⟩ := index_maps t
  show A (((cfg0.win 0).blk t).view.emb (ValueIdx.ix3 (0 : Fin 1) r k)) = A (ValueIdx.ix3 e row k)
  refine congrArg A (funext fun a => Fin.ext ?_)
  match a with
  | ⟨0, _⟩ => show win0_0.index t (0 : Fin 3) * 1 + 1 * (0 : Nat) = e.val; omega
  | ⟨1, _⟩ => show win0_0.index t (1 : Fin 3) * 128 + 1 * r.val = row.val; omega
  | ⟨2, _⟩ => show win0_0.index t (2 : Fin 3) * 2048 + 1 * k.val = k.val; omega

/-- Any array read through the gate window's block at point t: the block is expert t / 8's whole slab. -/
theorem gate_read (t : Fin cfg0.N) (A : Vec Ideal S8x1408x2048 .bf16) (e : Fin 8) (n : Fin 1408) (k : Fin 2048)
    (he : e.val = t.val / 8) :
    (((cfg0.win 1).blk t).view.read (Elt Ideal) A : Vec Ideal S1x1408x2048 .bf16) (ValueIdx.ix3 (0 : Fin 1) n k) = A (ValueIdx.ix3 e n k) := by
  obtain ⟨-, -, -, i0, i1, i2, -⟩ := index_maps t
  show A (((cfg0.win 1).blk t).view.emb (ValueIdx.ix3 (0 : Fin 1) n k)) = A (ValueIdx.ix3 e n k)
  refine congrArg A (funext fun a => Fin.ext ?_)
  match a with
  | ⟨0, _⟩ => show win0_1.index t (0 : Fin 3) * 1 + 1 * (0 : Nat) = e.val; omega
  | ⟨1, _⟩ => show win0_1.index t (1 : Fin 3) * 1408 + 1 * n.val = n.val; omega
  | ⟨2, _⟩ => show win0_1.index t (2 : Fin 3) * 2048 + 1 * k.val = k.val; omega

/-- Any array read through the up window's block at point t: the block is expert t / 8's whole slab. -/
theorem up_read (t : Fin cfg0.N) (A : Vec Ideal S8x1408x2048 .bf16) (e : Fin 8) (n : Fin 1408) (k : Fin 2048)
    (he : e.val = t.val / 8) :
    (((cfg0.win 2).blk t).view.read (Elt Ideal) A : Vec Ideal S1x1408x2048 .bf16) (ValueIdx.ix3 (0 : Fin 1) n k) = A (ValueIdx.ix3 e n k) := by
  obtain ⟨-, -, -, -, -, -, i0, i1, i2, -⟩ := index_maps t
  show A (((cfg0.win 2).blk t).view.emb (ValueIdx.ix3 (0 : Fin 1) n k)) = A (ValueIdx.ix3 e n k)
  refine congrArg A (funext fun a => Fin.ext ?_)
  match a with
  | ⟨0, _⟩ => show win0_2.index t (0 : Fin 3) * 1 + 1 * (0 : Nat) = e.val; omega
  | ⟨1, _⟩ => show win0_2.index t (1 : Fin 3) * 1408 + 1 * n.val = n.val; omega
  | ⟨2, _⟩ => show win0_2.index t (2 : Fin 3) * 2048 + 1 * k.val = k.val; omega

/-- Any array read through the down window's block at point t: the block is expert t / 8's whole slab. -/
theorem down_read (t : Fin cfg0.N) (A : Vec Ideal S8x2048x1408 .bf16) (e : Fin 8) (j : Fin 2048) (n : Fin 1408)
    (he : e.val = t.val / 8) :
    (((cfg0.win 3).blk t).view.read (Elt Ideal) A : Vec Ideal S1x2048x1408 .bf16) (ValueIdx.ix3 (0 : Fin 1) j n) = A (ValueIdx.ix3 e j n) := by
  obtain ⟨-, -, -, -, -, -, -, -, -, i0, i1, i2, -⟩ := index_maps t
  show A (((cfg0.win 3).blk t).view.emb (ValueIdx.ix3 (0 : Fin 1) j n)) = A (ValueIdx.ix3 e j n)
  refine congrArg A (funext fun a => Fin.ext ?_)
  match a with
  | ⟨0, _⟩ => show win0_3.index t (0 : Fin 3) * 1 + 1 * (0 : Nat) = e.val; omega
  | ⟨1, _⟩ => show win0_3.index t (1 : Fin 3) * 2048 + 1 * j.val = j.val; omega
  | ⟨2, _⟩ => show win0_3.index t (2 : Fin 3) * 1408 + 1 * n.val = n.val; omega

/-- Row r of the token block at point t is row 128·(t % 8) + r of expert t / 8's slab of the token buffer. -/
theorem tokBlk_apply (c : Dev nD) (t : Fin cfg0.N) (e : Fin 8) (row : Fin 1024) (r : Fin 128) (k : Fin 2048)
    (he : e.val = t.val / 8) (hrow : row.val = 128 * (t.val % 8) + r.val) :
    tokBlk m c t (ValueIdx.ix3 (0 : Fin 1) r k) = tokArr m c (ValueIdx.ix3 e row k) := by
  unfold tokBlk tokArr iblk
  exact tok_read t (V m c main_v72) e row r k he hrow

/-- The gate slab at point t is expert t / 8's slab of the gate weights. -/
theorem gateBlk_apply (c : Dev nD) (t : Fin cfg0.N) (e : Fin 8) (n : Fin 1408) (k : Fin 2048) (he : e.val = t.val / 8) :
    gateBlk m c t (ValueIdx.ix3 (0 : Fin 1) n k) = gateArr m c (ValueIdx.ix3 e n k) := by
  unfold gateBlk gateArr iblk
  exact gate_read t (V m c main_v73) e n k he

/-- The up slab at point t is expert t / 8's slab of the up weights. -/
theorem upBlk_apply (c : Dev nD) (t : Fin cfg0.N) (e : Fin 8) (n : Fin 1408) (k : Fin 2048) (he : e.val = t.val / 8) :
    upBlk m c t (ValueIdx.ix3 (0 : Fin 1) n k) = upArr m c (ValueIdx.ix3 e n k) := by
  unfold upBlk upArr iblk
  exact up_read t (V m c main_v74) e n k he

/-- The down slab at point t is expert t / 8's slab of the down weights. -/
theorem downBlk_apply (c : Dev nD) (t : Fin cfg0.N) (e : Fin 8) (j : Fin 2048) (n : Fin 1408) (he : e.val = t.val / 8) :
    downBlk m c t (ValueIdx.ix3 (0 : Fin 1) j n) = downArr m c (ValueIdx.ix3 e j n) := by
  unfold downBlk downArr iblk
  exact down_read t (V m c main_v75) e j n he

/-! ## What a point writes back -/

/-- The body's stored value at (r, j) of point t's block is the wanted array at (t / 8, 128·(t % 8) + r, j). -/
theorem point_value (c : Dev nD) (t : Fin cfg0.N) (e : Fin 8) (row : Fin 1024) (r : Fin 128) (j : Fin 2048)
    (he : e.val = t.val / 8) (hrow : row.val = 128 * (t.val % 8) + r.val) :
    k0_pay1 (F := Ideal) (tokBlk m c t) (gateBlk m c t) (upBlk m c t) (downBlk m c t) (ValueIdx.ix3 (0 : Fin 1) r j)
      = want m c (ValueIdx.ix3 e row j) :=
  block_value (tokBlk m c t) (gateBlk m c t) (upBlk m c t) (downBlk m c t) (tokArr m c) (gateArr m c) (upArr m c) (downArr m c)
    e row r j (fun k => tokBlk_apply m c t e row r k he hrow) (fun n k => gateBlk_apply m c t e n k he)
    (fun n k => upBlk_apply m c t e n k he) (fun n => downBlk_apply m c t e j n he)

/-- Any array read through the output window's block at point t: row r of the block is row 128·(t % 8) + r of
    expert t / 8's slab. -/
theorem out_read (t : Fin cfg0.N) (A : Vec Ideal S8x1024x2048 .f32) (e : Fin 8) (row : Fin 1024) (r : Fin 128) (j : Fin 2048)
    (he : e.val = t.val / 8) (hrow : row.val = 128 * (t.val % 8) + r.val) :
    (((cfg0.win 4).blk t).view.read (Elt Ideal) A : Vec Ideal S1x128x2048 .f32) (ValueIdx.ix3 (0 : Fin 1) r j) = A (ValueIdx.ix3 e row j) := by
  obtain ⟨-, -, -, -, -, -, -, -, -, -, -, -, i0, i1, i2⟩ := index_maps t
  show A (((cfg0.win 4).blk t).view.emb (ValueIdx.ix3 (0 : Fin 1) r j)) = A (ValueIdx.ix3 e row j)
  refine congrArg A (funext fun a => Fin.ext ?_)
  match a with
  | ⟨0, _⟩ => show win0_4.index t (0 : Fin 3) * 1 + 1 * (0 : Nat) = e.val; omega
  | ⟨1, _⟩ => show win0_4.index t (1 : Fin 3) * 128 + 1 * r.val = row.val; omega
  | ⟨2, _⟩ => show win0_4.index t (2 : Fin 3) * 2048 + 1 * j.val = j.val; omega

/-- The body's result over point t's blocks is block t of the wanted array. -/
theorem written_block (c : Dev nD) (t : Fin cfg0.N) :
    (k0_pay1 (F := Ideal) (tokBlk m c t) (gateBlk m c t) (upBlk m c t) (downBlk m c t) : Vec Ideal S1x128x2048 .f32)
      = (((cfg0.win 4).blk t).view.read (Elt Ideal) (want m c) : Vec Ideal S1x128x2048 .f32) := by
  funext y
  obtain ⟨z, r, j, rfl⟩ : ∃ (z : Fin 1) (r : Fin 128) (j : Fin 2048), y = ValueIdx.ix3 z r j :=
    ⟨y 0, y 1, y 2, ValueIdx.eq_ix3 y⟩
  obtain rfl : z = 0 := Subsingleton.elim _ _
  have ht : t.val < 64 := Nat.lt_of_lt_of_eq t.isLt N_0
  have hr : r.val < 128 := r.isLt
  exact (point_value m c t ⟨t.val / 8, by omega⟩ ⟨128 * (t.val % 8) + r.val, by omega⟩ r j rfl rfl).trans
    (out_read t (want m c) ⟨t.val / 8, by omega⟩ ⟨128 * (t.val % 8) + r.val, by omega⟩ r j rfl rfl).symm

/-- WHAT POINT t WRITES BACK is block t of the wanted array. -/
theorem written_eq (c : Dev nD) (t : Fin cfg0.N) :
    (dats (F := Ideal) m 0 c).flushed 4 t = ((cfg0.win 4).blk t).view.read (Elt Ideal) (want m c) := by
  show (cfg0.win 4).cut (grid0.coords t) ((dats m 0 c).after 4 t) = _
  rw [after0_4]
  unfold out0_4
  rw [View.canon_unit_zero zero3]
  simp only [View.ld_unit_zero (S := S1x128x2048) zero3, View.ld_unit_zero (S := S1x1408x2048) zero3,
    View.ld_unit_zero (S := S1x2048x1408) zero3]
  exact written_block m c t

/-! ## The blocks tile the output array -/

/-- An entry of the output array is in point t's block iff each coordinate is in the block's range on its axis. -/
theorem mem_block (t : Fin cfg0.N) (i : S8x1024x2048.Idx) :
    i ∈ ((cfg0.win 4).blk t).view.set ↔ ∀ a : Fin 3, win0_4.index t a * S1x128x2048.size a ≤ (i a).val
      ∧ (i a).val < win0_4.index t a * S1x128x2048.size a + S1x128x2048.size a := by
  show i ∈ ((View.whole main_v76).slice (win0_4.rect t)).set ↔ _
  rw [View.set_slice_whole, Rect.mem_set_unit]
  exact Iff.rfl

/-- Every entry (e, row, j) of the output array is in the block of the point 8·e + row / 128, which writes back. -/
theorem covered (i : S8x1024x2048.Idx) :
    ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 2048 := (i 2).isLt
  obtain ⟨t, ht⟩ : ∃ t : Fin cfg0.N, t.val = 8 * (i 0).val + (i 1).val / 128 :=
    ⟨⟨8 * (i 0).val + (i 1).val / 128, Nat.lt_of_lt_of_eq (by omega) N_0.symm⟩, rfl⟩
  obtain ⟨-, -, -, -, -, -, -, -, -, -, -, -, q0, q1, q2⟩ := index_maps t
  refine ⟨t, flush0_4 t, ?_⟩
  rw [mem_block]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 128 ≤ (i 1).val ∧ (i 1).val < win0_4.index t (1 : Fin 3) * 128 + 128
    omega
  | ⟨2, _⟩ =>
    show win0_4.index t (2 : Fin 3) * 2048 ≤ (i 2).val ∧ (i 2).val < win0_4.index t (2 : Fin 3) * 2048 + 2048
    omega

/-! ## The output array after the run -/

/-- The output array after the run is the wanted array: every point writes its block of it, and the blocks cover. -/
theorem region_array (c : Dev nD) : (dats (F := Ideal) m 0 c).arrAt 4 cfg0.N = want m c :=
  (dats m 0 c).arrAt_eq_of_cover 4 (want m c) (fun t _ => written_eq m c t) covered

/-- The region's output array after the run is the specification of the arrays the region found: the token buffer
    and the three weight arrays as they stand at the region's entry. -/
theorem region_value (c : Dev nD) (e : Fin 8) (r : Fin 1024) (j : Fin 2048) :
    (dats (F := Ideal) m 0 c).arrAt 4 cfg0.N (ValueIdx.ix3 e r j)
      = Cert.Spec.ffn (Cert.Spec.at3 (V m c main_v72)) (Cert.Spec.at3 (V m c main_v73)) (Cert.Spec.at3 (V m c main_v74))
          (Cert.Spec.at3 (V m c main_v75)) e r j := by
  rw [region_array m c]

end Cert.KernelIdeal.Hand

end
-- ==== Proof.RefOps.lean ====
/-
  The reference program's @main as three consecutive lines of host operations: up to the scatter that fills the
  per-expert token buffer; the three contractions with the gate clamp, the up clamp and x / (1 + e^(-x)) between them;
  and the gather, the weighting by the routing gate and the scatter-add that follow. The functions jax outlined are
  written out at their call sites, over each call's own buffers.
-/
import proofs.«139148_j89910845375253_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 99 operations. -/
abbrev opsHead : List (HloOp τ sig (Elt F)) :=
  [ StableHlo.reshape main_arg1 main_v0 rfl shapeCasts_S2048x2_S4096,
    StableHlo.reshape main_arg2 main_v1 rfl shapeCasts_S2048x2_S4096,
    StableHlo.nullary main_v2 (iotaInDim S2048 32 0),
    StableHlo.unary main_v2 main_v3 (broadcastInDim S2048x2 ![0] bcast_S2048_S2048x2_0 : (⟨S2048, .i32⟩ : BufTy).Contents (Elt F) → (⟨S2048x2, .i32⟩ : BufTy).Contents (Elt F)),
    StableHlo.reshape main_v3 main_v4 rfl shapeCasts_S2048x2_S4096,
    StableHlo.TRef.nullary main_call0.v0 (iotaInDim S4096 32 0),
    StableHlo.TRef.binary (.of main_v0) main_call0.v0 main_call0.v1_0 (fun x y => (Host.sort2 S4096 0 comparator_i32_i32_d0 x y).1),
    StableHlo.TRef.binary (.of main_v0) main_call0.v0 main_call0.v1_1 (fun x y => (Host.sort2 S4096 0 comparator_i32_i32_d0 x y).2),
    StableHlo.nullary main_c (constantI S_ 32 0#32),
    StableHlo.unary main_c main_v6 (broadcastInDim S4096 ![] bcast_S_S4096 : (⟨S_, .i32⟩ : BufTy).Contents (Elt F) → (⟨S4096, .i32⟩ : BufTy).Contents (Elt F)),
    StableHlo.binary main_v5 main_v6 main_v7 (cmpi .slt : (⟨S4096, .i32⟩ : BufTy).Contents (Elt F) → (⟨S4096, .i32⟩ : BufTy).Contents (Elt F) → (⟨S4096, .i1⟩ : BufTy).Contents (Elt F)),
    StableHlo.nullary main_c_0 (constantI S_ 32 4096#32),
    StableHlo.unary main_c_0 main_v8 (broadcastInDim S4096 ![] bcast_S_S4096 : (⟨S_, .i32⟩ : BufTy).Contents (Elt F) → (⟨S4096, .i32⟩ : BufTy).Contents (Elt F)),
    StableHlo.binary main_v5 main_v8 main_v9 (addi : (⟨S4096, .i32⟩ : BufTy).Contents (Elt F) → (⟨S4096, .i32⟩ : BufTy).Contents (Elt F) → (⟨S4096, .i32⟩ : BufTy).Contents (Elt F)),
    StableHlo.ternary main_v7 main_v9 main_v5 main_v10 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v10 main_v11 (broadcastInDim S4096x1 ![0] bcast_S4096_S4096x1_0 : (⟨S4096, .i32⟩ : BufTy).Contents (Elt F) → (⟨S4096x1, .i32⟩ : BufTy).Contents (Elt F)),
    StableHlo.binary main_v0 main_v11 main_v12 ((fun x i => Host.gather gather_S4096_S4096x1_S4096_n_0_n_n_0_1_1 x i) : (⟨S4096, .i32⟩ : BufTy).Contents (Elt F) → (⟨S4096x1, .i32⟩ : BufTy).Contents (Elt F) → (⟨S4096, .i32⟩ : BufTy).Contents (Elt F)),
    StableHlo.nullary main_c_1 (constantI S_ 32 0#32),
    StableHlo.unary main_c_1 main_v13 (broadcastInDim S4096 ![] bcast_S_S4096 : (⟨S_, .i32⟩ : BufTy).Contents (Elt F) → (⟨S4096, .i32⟩ : BufTy).Contents (Elt F)),
    StableHlo.binary main_v5 main_v13 main_v14 (cmpi .slt : (⟨S4096, .i32⟩ : BufTy).Contents (Elt F) → (⟨S4096, .i32⟩ : BufTy).Contents (Elt F) → (⟨S4096, .i1⟩ : BufTy).Contents (Elt F)),
    StableHlo.nullary main_c_2 (constantI S_ 32 4096#32),
    StableHlo.unary main_c_2 main_v15 (broadcastInDim S4096 ![] bcast_S_S4096 : (⟨S_, .i32⟩ : BufTy).Contents (Elt F) → (⟨S4096, .i32⟩ : BufTy).Contents (Elt F)),
    StableHlo.binary main_v5 main_v15 main_v16 (addi : (⟨S4096, .i32⟩ : BufTy).Contents (Elt F) → (⟨S4096, .i32⟩ : BufTy).Contents (Elt F) → (⟨S4096, .i32⟩ : BufTy).Contents (Elt F)),
    StableHlo.ternary main_v14 main_v16 main_v5 main_v17 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v17 main_v18 (broadcastInDim S4096x1 ![0] bcast_S4096_S4096x1_0 : (⟨S4096, .i32⟩ : BufTy).Contents (Elt F) → (⟨S4096x1, .i32⟩ : BufTy).Contents (Elt F)),
    StableHlo.binary main_v4 main_v18 main_v19 ((fun x i => Host.gather gather_S4096_S4096x1_S4096_n_0_n_n_0_1_1 x i) : (⟨S4096, .i32⟩ : BufTy).Contents (Elt F) → (⟨S4096x1, .i32⟩ : BufTy).Contents (Elt F) → (⟨S4096, .i32⟩ : BufTy).Contents (Elt F)),
    StableHlo.nullary main_c_3 (constantI S_ 32 0#32),
    StableHlo.unary main_c_3 main_v20 (broadcastInDim S4096 ![] bcast_S_S4096 : (⟨S_, .i32⟩ : BufTy).Contents (Elt F) → (⟨S4096, .i32⟩ : BufTy).Contents (Elt F)),
    StableHlo.binary main_v5 main_v20 main_v21 (cmpi .slt : (⟨S4096, .i32⟩ : BufTy).Contents (Elt F) → (⟨S4096, .i32⟩ : BufTy).Contents (Elt F) → (⟨S4096, .i1⟩ : BufTy).Contents (Elt F)),
    StableHlo.nullary main_c_4 (constantI S_ 32 4096#32),
    StableHlo.unary main_c_4 main_v22 (broadcastInDim S4096 ![] bcast_S_S4096 : (⟨S_, .i32⟩ : BufTy).Contents (Elt F) → (⟨S4096, .i32⟩ : BufTy).Contents (Elt F)),
    StableHlo.binary main_v5 main_v22 main_v23 (addi : (⟨S4096, .i32⟩ : BufTy).Contents (Elt F) → (⟨S4096, .i32⟩ : BufTy).Contents (Elt F) → (⟨S4096, .i32⟩ : BufTy).Contents (Elt F)),
    StableHlo.ternary main_v21 main_v23 main_v5 main_v24 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v24 main_v25 (broadcastInDim S4096x1 ![0] bcast_S4096_S4096x1_0 : (⟨S4096, .i32⟩ : BufTy).Contents (Elt F) → (⟨S4096x1, .i32⟩ : BufTy).Contents (Elt F)),
    StableHlo.binary main_v1 main_v25 main_v26 ((fun x i => Host.gather gather_S4096_S4096x1_S4096_n_0_n_n_0_1_1 x i) : (⟨S4096, .f32⟩ : BufTy).Contents (Elt F) → (⟨S4096x1, .i32⟩ : BufTy).Contents (Elt F) → (⟨S4096, .f32⟩ : BufTy).Contents (Elt F)),
    StableHlo.nullary main_c_5 (constantI S_ 32 0#32),
    StableHlo.unary main_c_5 main_v27 (broadcastInDim S8 ![] bcast_S_S8 : (⟨S_, .i32⟩ : BufTy).Contents (Elt F) → (⟨S8, .i32⟩ : BufTy).Contents (Elt F)),
    StableHlo.nullary main_c_6 (constantI S_ 32 0#32),
    StableHlo.TRef.unary (.of main_c_6) main_call1.v0 id,
    StableHlo.TRef.unary main_call1.v0 main_call1.v1 (broadcastInDim S4096 ![] bcast_S_S4096),
    StableHlo.TRef.binary main_call1.v1 (.of main_v0) main_call1.v2 maxsi,
    StableHlo.nullary main_c_7 (constantI S_ 32 0#32),
    StableHlo.unary main_c_7 main_v29 (broadcastInDim S4096 ![] bcast_S_S4096 : (⟨S_, .i32⟩ : BufTy).Contents (Elt F) → (⟨S4096, .i32⟩ : BufTy).Contents (Elt F)),
    StableHlo.binary main_v28 main_v29 main_v30 (cmpi .slt : (⟨S4096, .i32⟩ : BufTy).Contents (Elt F) → (⟨S4096, .i32⟩ : BufTy).Contents (Elt F) → (⟨S4096, .i1⟩ : BufTy).Contents (Elt F)),
    StableHlo.nullary main_c_8 (constantI S_ 32 8#32),
    StableHlo.unary main_c_8 main_v31 (broadcastInDim S4096 ![] bcast_S_S4096 : (⟨S_, .i32⟩ : BufTy).Contents (Elt F) → (⟨S4096, .i32⟩ : BufTy).Contents (Elt F)),
    StableHlo.binary main_v28 main_v31 main_v32 (addi : (⟨S4096, .i32⟩ : BufTy).Contents (Elt F) → (⟨S4096, .i32⟩ : BufTy).Contents (Elt F) → (⟨S4096, .i32⟩ : BufTy).Contents (Elt F)),
    StableHlo.ternary main_v30 main_v32 main_v28 main_v33 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v33 main_v34 (broadcastInDim S4096x1 ![0] bcast_S4096_S4096x1_0 : (⟨S4096, .i32⟩ : BufTy).Contents (Elt F) → (⟨S4096x1, .i32⟩ : BufTy).Contents (Elt F)),
    StableHlo.nullary main_c_9 (constantI S_ 32 1#32),
    StableHlo.unary main_c_9 main_v35 (broadcastInDim S4096 ![] bcast_S_S4096 : (⟨S_, .i32⟩ : BufTy).Contents (Elt F) → (⟨S4096, .i32⟩ : BufTy).Contents (Elt F)),
    StableHlo.ternary main_v27 main_v34 main_v35 main_v36 ((fun x i u => Host.scatter scatter_S8_S4096x1_S4096_n_0_0_1 IntOp.addi x i u) : (⟨S8, .i32⟩ : BufTy).Contents (Elt F) → (⟨S4096x1, .i32⟩ : BufTy).Contents (Elt F) → (⟨S4096, .i32⟩ : BufTy).Contents (Elt F) → (⟨S8, .i32⟩ : BufTy).Contents (Elt F)),
    StableHlo.nullary main_c_10 (constantI S_ 32 0#32),
    StableHlo.unary main_c_10 main_v37 (broadcastInDim S1 ![] bcast_S_S1 : (⟨S_, .i32⟩ : BufTy).Contents (Elt F) → (⟨S1, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v36) main_call2.call0.v0 main_call2.call0.v1 (fun x v => Host.reduceWindow IntOp.addi ![8] ![1] ![7] ![0] x v reduceWindows_S8_S8_w8s1p7_0 h_S_),
    StableHlo.unary main_v38 main_v39 ((extractStridedSlice S7 ![0] · slices_S8_S7_0) : (⟨S8, .i32⟩ : BufTy).Contents (Elt F) → (⟨S7, .i32⟩ : BufTy).Contents (Elt F)),
    StableHlo.binary main_v37 main_v39 main_v40 ((fun a b => concatenate S8 0 [⟨S1, a⟩, ⟨S7, b⟩] concatenates_S1_S7_S8_d0) : (⟨S1, .i32⟩ : BufTy).Contents (Elt F) → (⟨S7, .i32⟩ : BufTy).Contents (Elt F) → (⟨S8, .i32⟩ : BufTy).Contents (Elt F)),
    StableHlo.nullary main_v41 (iotaInDim S4096 32 0),
    StableHlo.nullary main_c_11 (constantI S_ 32 0#32),
    StableHlo.unary main_c_11 main_v42 (broadcastInDim S4096 ![] bcast_S_S4096 : (⟨S_, .i32⟩ : BufTy).Contents (Elt F) → (⟨S4096, .i32⟩ : BufTy).Contents (Elt F)),
    StableHlo.binary main_v12 main_v42 main_v43 (cmpi .slt : (⟨S4096, .i32⟩ : BufTy).Contents (Elt F) → (⟨S4096, .i32⟩ : BufTy).Contents (Elt F) → (⟨S4096, .i1⟩ : BufTy).Contents (Elt F)),
    StableHlo.nullary main_c_12 (constantI S_ 32 8#32),
    StableHlo.unary main_c_12 main_v44 (broadcastInDim S4096 ![] bcast_S_S4096 : (⟨S_, .i32⟩ : BufTy).Contents (Elt F) → (⟨S4096, .i32⟩ : BufTy).Contents (Elt F)),
    StableHlo.binary main_v12 main_v44 main_v45 (addi : (⟨S4096, .i32⟩ : BufTy).Contents (Elt F) → (⟨S4096, .i32⟩ : BufTy).Contents (Elt F) → (⟨S4096, .i32⟩ : BufTy).Contents (Elt F)),
    StableHlo.ternary main_v43 main_v45 main_v12 main_v46 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v46 main_v47 (broadcastInDim S4096x1 ![0] bcast_S4096_S4096x1_0 : (⟨S4096, .i32⟩ : BufTy).Contents (Elt F) → (⟨S4096x1, .i32⟩ : BufTy).Contents (Elt F)),
    StableHlo.binary main_v40 main_v47 main_v48 ((fun x i => Host.gather gather_S8_S4096x1_S4096_n_0_n_n_0_1_1 x i) : (⟨S8, .i32⟩ : BufTy).Contents (Elt F) → (⟨S4096x1, .i32⟩ : BufTy).Contents (Elt F) → (⟨S4096, .i32⟩ : BufTy).Contents (Elt F)),
    StableHlo.binary main_v41 main_v48 main_v49 (subi : (⟨S4096, .i32⟩ : BufTy).Contents (Elt F) → (⟨S4096, .i32⟩ : BufTy).Contents (Elt F) → (⟨S4096, .i32⟩ : BufTy).Contents (Elt F)),
    StableHlo.nullary main_cst (constant S_ .f32 0x00000000#32),
    StableHlo.unary main_cst main_v50 (broadcastInDim S8x1024x2048 ![] bcast_S_S8x1024x2048 : (⟨S_, .f32⟩ : BufTy).Contents (Elt F) → (⟨S8x1024x2048, .f32⟩ : BufTy).Contents (Elt F)),
    StableHlo.nullary main_c_13 (constantI S_ 32 0#32),
    StableHlo.unary main_c_13 main_v51 (broadcastInDim S4096 ![] bcast_S_S4096 : (⟨S_, .i32⟩ : BufTy).Contents (Elt F) → (⟨S4096, .i32⟩ : BufTy).Contents (Elt F)),
    StableHlo.binary main_v19 main_v51 main_v52 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 2048#32),
    StableHlo.unary main_c_14 main_v53 (broadcastInDim S4096 ![] bcast_S_S4096 : (⟨S_, .i32⟩ : BufTy).Contents (Elt F) → (⟨S4096, .i32⟩ : BufTy).Contents (Elt F)),
    StableHlo.binary main_v19 main_v53 main_v54 (addi : (⟨S4096, .i32⟩ : BufTy).Contents (Elt F) → (⟨S4096, .i32⟩ : BufTy).Contents (Elt F) → (⟨S4096, .i32⟩ : BufTy).Contents (Elt F)),
    StableHlo.ternary main_v52 main_v54 main_v19 main_v55 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v55 main_v56 (broadcastInDim S4096x1 ![0] bcast_S4096_S4096x1_0 : (⟨S4096, .i32⟩ : BufTy).Contents (Elt F) → (⟨S4096x1, .i32⟩ : BufTy).Contents (Elt F)),
    StableHlo.binary main_arg0 main_v56 main_v57 ((fun x i => Host.gather gather_S2048x2048_S4096x1_S4096x2048_1_0_n_n_0_1_12048 x i) : (⟨S2048x2048, .f32⟩ : BufTy).Contents (Elt F) → (⟨S4096x1, .i32⟩ : BufTy).Contents (Elt F) → (⟨S4096x2048, .f32⟩ : BufTy).Contents (Elt F)),
    StableHlo.nullary main_c_15 (constantI S_ 32 0#32),
    StableHlo.unary main_c_15 main_v58 (broadcastInDim S4096 ![] bcast_S_S4096 : (⟨S_, .i32⟩ : BufTy).Contents (Elt F) → (⟨S4096, .i32⟩ : BufTy).Contents (Elt F)),
    StableHlo.binary main_v12 main_v58 main_v59 (cmpi .slt : (⟨S4096, .i32⟩ : BufTy).Contents (Elt F) → (⟨S4096, .i32⟩ : BufTy).Contents (Elt F) → (⟨S4096, .i1⟩ : BufTy).Contents (Elt F)),
    StableHlo.nullary main_c_16 (constantI S_ 32 8#32),
    StableHlo.unary main_c_16 main_v60 (broadcastInDim S4096 ![] bcast_S_S4096 : (⟨S_, .i32⟩ : BufTy).Contents (Elt F) → (⟨S4096, .i32⟩ : BufTy).Contents (Elt F)),
    StableHlo.binary main_v12 main_v60 main_v61 (addi : (⟨S4096, .i32⟩ : BufTy).Contents (Elt F) → (⟨S4096, .i32⟩ : BufTy).Contents (Elt F) → (⟨S4096, .i32⟩ : BufTy).Contents (Elt F)),
    StableHlo.ternary main_v59 main_v61 main_v12 main_v62 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_17 (constantI S_ 32 0#32),
    StableHlo.unary main_c_17 main_v63 (broadcastInDim S4096 ![] bcast_S_S4096 : (⟨S_, .i32⟩ : BufTy).Contents (Elt F) → (⟨S4096, .i32⟩ : BufTy).Contents (Elt F)),
    StableHlo.binary main_v49 main_v63 main_v64 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 1024#32),
    StableHlo.unary main_c_18 main_v65 (broadcastInDim S4096 ![] bcast_S_S4096 : (⟨S_, .i32⟩ : BufTy).Contents (Elt F) → (⟨S4096, .i32⟩ : BufTy).Contents (Elt F)),
    StableHlo.binary main_v49 main_v65 main_v66 (addi : (⟨S4096, .i32⟩ : BufTy).Contents (Elt F) → (⟨S4096, .i32⟩ : BufTy).Contents (Elt F) → (⟨S4096, .i32⟩ : BufTy).Contents (Elt F)),
    StableHlo.ternary main_v64 main_v66 main_v49 main_v67 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v62 main_v68 (broadcastInDim S4096x1 ![0] bcast_S4096_S4096x1_0 : (⟨S4096, .i32⟩ : BufTy).Contents (Elt F) → (⟨S4096x1, .i32⟩ : BufTy).Contents (Elt F)),
    StableHlo.unary main_v67 main_v69 (broadcastInDim S4096x1 ![0] bcast_S4096_S4096x1_0 : (⟨S4096, .i32⟩ : BufTy).Contents (Elt F) → (⟨S4096x1, .i32⟩ : BufTy).Contents (Elt F)),
    StableHlo.binary main_v68 main_v69 main_v70 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.ternary main_v50 main_v70 main_v57 main_v71 ((fun x i u => Host.scatter scatter_S8x1024x2048_S4096x2_S4096x2048_1_01_01_1 (fun _ b => b) x i u) : (⟨S8x1024x2048, .f32⟩ : BufTy).Contents (Elt F) → (⟨S4096x2, .i32⟩ : BufTy).Contents (Elt F) → (⟨S4096x2048, .f32⟩ : BufTy).Contents (Elt F) → (⟨S8x1024x2048, .f32⟩ : BufTy).Contents (Elt F)) ]

theorem opsHead_sub : (opsHead : List (HloOp τ sig (Elt F))).Forall fun op => op.bufs ⊆ tcRefs τ sig :=
  ⟨reshape_bufs_sub .., reshape_bufs_sub .., nullary_bufs_sub .., unary_bufs_sub .., reshape_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., nullary_bufs_sub .., unary_bufs_sub .., binary_bufs_sub .., unary_bufs_sub .., binary_bufs_sub .., nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

/-- 24 operations. -/
abbrev opsMid : List (HloOp τ sig (Elt F)) :=
  [ StableHlo.binary main_v71 main_arg3 main_v72 ((fun l r => Host.dotGeneral dot_S8x1024x2048_S8x1408x2048_S8x1024x1408_2_2_1_1_0_0 none l r) : (⟨S8x1024x2048, .f32⟩ : BufTy).Contents (Elt F) → (⟨S8x1408x2048, .f32⟩ : BufTy).Contents (Elt F) → (⟨S8x1024x1408, .f32⟩ : BufTy).Contents (Elt F)),
    StableHlo.nullary main_cst_19 (constant S_ .f32 0x41200000#32),
    StableHlo.unary main_cst_19 main_v73 (broadcastInDim S8x1024x1408 ![] bcast_S_S8x1024x1408 : (⟨S_, .f32⟩ : BufTy).Contents (Elt F) → (⟨S8x1024x1408, .f32⟩ : BufTy).Contents (Elt F)),
    StableHlo.binary main_v72 main_v73 main_v74 (minimumf : (⟨S8x1024x1408, .f32⟩ : BufTy).Contents (Elt F) → (⟨S8x1024x1408, .f32⟩ : BufTy).Contents (Elt F) → (⟨S8x1024x1408, .f32⟩ : BufTy).Contents (Elt F)),
    StableHlo.binary main_v71 main_arg4 main_v75 ((fun l r => Host.dotGeneral dot_S8x1024x2048_S8x1408x2048_S8x1024x1408_2_2_1_1_0_0 none l r) : (⟨S8x1024x2048, .f32⟩ : BufTy).Contents (Elt F) → (⟨S8x1408x2048, .f32⟩ : BufTy).Contents (Elt F) → (⟨S8x1024x1408, .f32⟩ : BufTy).Contents (Elt F)),
    StableHlo.nullary main_cst_20 (constant S_ .f32 0xC1200000#32),
    StableHlo.nullary main_cst_21 (constant S_ .f32 0x41200000#32),
    StableHlo.TRef.unary (.of main_cst_20) main_call3.v0 id,
    StableHlo.TRef.unary main_call3.v0 main_call3.v1 (broadcastInDim S8x1024x1408 ![] bcast_S_S8x1024x1408),
    StableHlo.TRef.binary main_call3.v1 (.of main_v75) main_call3.v2 maximumf,
    StableHlo.TRef.unary (.of main_cst_21) main_call3.v3 id,
    StableHlo.TRef.unary main_call3.v3 main_call3.v4 (broadcastInDim S8x1024x1408 ![] bcast_S_S8x1024x1408),
    StableHlo.TRef.binary main_call3.v4 main_call3.v2 main_call3.v5 minimumf,
    StableHlo.TRef.unary (.of main_v74) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S8x1024x1408 ![] bcast_S_S8x1024x1408),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S8x1024x1408 ![] bcast_S_S8x1024x1408),
    StableHlo.TRef.binary main_call4.v4 main_call4.v3 main_call4.v5 Host.divf,
    StableHlo.TRef.binary (.of main_v74) main_call4.v5 main_call4.v6 mulf,
    StableHlo.binary main_v77 main_v76 main_v78 (mulf : (⟨S8x1024x1408, .f32⟩ : BufTy).Contents (Elt F) → (⟨S8x1024x1408, .f32⟩ : BufTy).Contents (Elt F) → (⟨S8x1024x1408, .f32⟩ : BufTy).Contents (Elt F)),
    StableHlo.binary main_v78 main_arg5 main_v79 ((fun l r => Host.dotGeneral dot_S8x1024x1408_S8x2048x1408_S8x1024x2048_2_2_1_1_0_0 none l r) : (⟨S8x1024x1408, .f32⟩ : BufTy).Contents (Elt F) → (⟨S8x2048x1408, .f32⟩ : BufTy).Contents (Elt F) → (⟨S8x1024x2048, .f32⟩ : BufTy).Contents (Elt F)) ]

theorem opsMid_sub : (opsMid : List (HloOp τ sig (Elt F))).Forall fun op => op.bufs ⊆ tcRefs τ sig :=
  ⟨binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub ..⟩

/-- 32 operations. -/
abbrev opsTail : List (HloOp τ sig (Elt F)) :=
  [ StableHlo.nullary main_c_22 (constantI S_ 32 0#32),
    StableHlo.unary main_c_22 main_v80 (broadcastInDim S4096 ![] bcast_S_S4096 : (⟨S_, .i32⟩ : BufTy).Contents (Elt F) → (⟨S4096, .i32⟩ : BufTy).Contents (Elt F)),
    StableHlo.binary main_v12 main_v80 main_v81 (cmpi .slt : (⟨S4096, .i32⟩ : BufTy).Contents (Elt F) → (⟨S4096, .i32⟩ : BufTy).Contents (Elt F) → (⟨S4096, .i1⟩ : BufTy).Contents (Elt F)),
    StableHlo.nullary main_c_23 (constantI S_ 32 8#32),
    StableHlo.unary main_c_23 main_v82 (broadcastInDim S4096 ![] bcast_S_S4096 : (⟨S_, .i32⟩ : BufTy).Contents (Elt F) → (⟨S4096, .i32⟩ : BufTy).Contents (Elt F)),
    StableHlo.binary main_v12 main_v82 main_v83 (addi : (⟨S4096, .i32⟩ : BufTy).Contents (Elt F) → (⟨S4096, .i32⟩ : BufTy).Contents (Elt F) → (⟨S4096, .i32⟩ : BufTy).Contents (Elt F)),
    StableHlo.ternary main_v81 main_v83 main_v12 main_v84 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_24 (constantI S_ 32 0#32),
    StableHlo.unary main_c_24 main_v85 (broadcastInDim S4096 ![] bcast_S_S4096 : (⟨S_, .i32⟩ : BufTy).Contents (Elt F) → (⟨S4096, .i32⟩ : BufTy).Contents (Elt F)),
    StableHlo.binary main_v49 main_v85 main_v86 (cmpi .slt : (⟨S4096, .i32⟩ : BufTy).Contents (Elt F) → (⟨S4096, .i32⟩ : BufTy).Contents (Elt F) → (⟨S4096, .i1⟩ : BufTy).Contents (Elt F)),
    StableHlo.nullary main_c_25 (constantI S_ 32 1024#32),
    StableHlo.unary main_c_25 main_v87 (broadcastInDim S4096 ![] bcast_S_S4096 : (⟨S_, .i32⟩ : BufTy).Contents (Elt F) → (⟨S4096, .i32⟩ : BufTy).Contents (Elt F)),
    StableHlo.binary main_v49 main_v87 main_v88 (addi : (⟨S4096, .i32⟩ : BufTy).Contents (Elt F) → (⟨S4096, .i32⟩ : BufTy).Contents (Elt F) → (⟨S4096, .i32⟩ : BufTy).Contents (Elt F)),
    StableHlo.ternary main_v86 main_v88 main_v49 main_v89 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v84 main_v90 (broadcastInDim S4096x1 ![0] bcast_S4096_S4096x1_0 : (⟨S4096, .i32⟩ : BufTy).Contents (Elt F) → (⟨S4096x1, .i32⟩ : BufTy).Contents (Elt F)),
    StableHlo.unary main_v89 main_v91 (broadcastInDim S4096x1 ![0] bcast_S4096_S4096x1_0 : (⟨S4096, .i32⟩ : BufTy).Contents (Elt F) → (⟨S4096x1, .i32⟩ : BufTy).Contents (Elt F)),
    StableHlo.binary main_v90 main_v91 main_v92 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v79 main_v92 main_v93 ((fun x i => Host.gather gather_S8x1024x2048_S4096x2_S4096x2048_1_01_n_n_01_1_112048 x i) : (⟨S8x1024x2048, .f32⟩ : BufTy).Contents (Elt F) → (⟨S4096x2, .i32⟩ : BufTy).Contents (Elt F) → (⟨S4096x2048, .f32⟩ : BufTy).Contents (Elt F)),
    StableHlo.unary main_v26 main_v94 (broadcastInDim S4096x1 ![0] bcast_S4096_S4096x1_0 : (⟨S4096, .f32⟩ : BufTy).Contents (Elt F) → (⟨S4096x1, .f32⟩ : BufTy).Contents (Elt F)),
    StableHlo.unary main_v94 main_v95 (broadcastInDim S4096x2048 ![0, 1] bcast_S4096x1_S4096x2048_0_1 : (⟨S4096x1, .f32⟩ : BufTy).Contents (Elt F) → (⟨S4096x2048, .f32⟩ : BufTy).Contents (Elt F)),
    StableHlo.binary main_v93 main_v95 main_v96 (mulf : (⟨S4096x2048, .f32⟩ : BufTy).Contents (Elt F) → (⟨S4096x2048, .f32⟩ : BufTy).Contents (Elt F) → (⟨S4096x2048, .f32⟩ : BufTy).Contents (Elt F)),
    StableHlo.nullary main_cst_26 (constant S_ .f32 0x00000000#32),
    StableHlo.unary main_cst_26 main_v97 (broadcastInDim S2048x2048 ![] bcast_S_S2048x2048 : (⟨S_, .f32⟩ : BufTy).Contents (Elt F) → (⟨S2048x2048, .f32⟩ : BufTy).Contents (Elt F)),
    StableHlo.nullary main_c_27 (constantI S_ 32 0#32),
    StableHlo.unary main_c_27 main_v98 (broadcastInDim S4096 ![] bcast_S_S4096 : (⟨S_, .i32⟩ : BufTy).Contents (Elt F) → (⟨S4096, .i32⟩ : BufTy).Contents (Elt F)),
    StableHlo.binary main_v19 main_v98 main_v99 (cmpi .slt : (⟨S4096, .i32⟩ : BufTy).Contents (Elt F) → (⟨S4096, .i32⟩ : BufTy).Contents (Elt F) → (⟨S4096, .i1⟩ : BufTy).Contents (Elt F)),
    StableHlo.nullary main_c_28 (constantI S_ 32 2048#32),
    StableHlo.unary main_c_28 main_v100 (broadcastInDim S4096 ![] bcast_S_S4096 : (⟨S_, .i32⟩ : BufTy).Contents (Elt F) → (⟨S4096, .i32⟩ : BufTy).Contents (Elt F)),
    StableHlo.binary main_v19 main_v100 main_v101 (addi : (⟨S4096, .i32⟩ : BufTy).Contents (Elt F) → (⟨S4096, .i32⟩ : BufTy).Contents (Elt F) → (⟨S4096, .i32⟩ : BufTy).Contents (Elt F)),
    StableHlo.ternary main_v99 main_v101 main_v19 main_v102 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v102 main_v103 (broadcastInDim S4096x1 ![0] bcast_S4096_S4096x1_0 : (⟨S4096, .i32⟩ : BufTy).Contents (Elt F) → (⟨S4096x1, .i32⟩ : BufTy).Contents (Elt F)),
    StableHlo.ternary main_v97 main_v103 main_v96 main_v104 ((fun x i u => Host.scatterAdd scatter_S2048x2048_S4096x1_S4096x2048_1_0_0_1 x i u) : (⟨S2048x2048, .f32⟩ : BufTy).Contents (Elt F) → (⟨S4096x1, .i32⟩ : BufTy).Contents (Elt F) → (⟨S4096x2048, .f32⟩ : BufTy).Contents (Elt F) → (⟨S2048x2048, .f32⟩ : BufTy).Contents (Elt F)) ]

theorem opsTail_sub : (opsTail : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

end Cert.ReferenceIdeal.Hand

end
-- ==== Proof.LibAfterAppend.lean ====
/-
  The buffer contents after two lines of host operations run one after the other are the second line's
  contents from the first line's: the fold that reads a line of operations back distributes over
  concatenation. Stated for any signature and any values; nothing here mentions a program.
-/
import Idealize.ShloMosaic.Lib.StableHlo.Run

namespace Idealize.ShloMosaic.StableHlo

variable {τ : Topo} {sig : RefSig} {Val : EltTy → Type}

/-- Reading back `l₁ ++ l₂` from `V` is reading back `l₂` from what `l₁` leaves of `V`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefRun.lean ====
/-
  The reference program runs as one straight line of host operations: its @main, with the functions jax
  outlined written out where they are called, IS the concatenation of the three lines of Proof/RefOps.lean.
  So every weakly fair execution terminates, nothing faults, and each buffer ends at the line's fold over the
  launch contents; the fold of a concatenation is the folds composed, which lets the head of the program (the
  routing: sort, counts, positions, the scatter into the per-expert buffer) stay closed while the contractions
  and the combine after them are read.
-/
import proofs.«139148_j89910845375253_1_alg».proof.Proof.RefOps
import proofs.«139148_j89910845375253_1_alg».proof.Proof.LibAfterAppend
import proofs.«139148_j89910845375253_1_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The whole line. -/
abbrev ops : List (HloOp τ sig (Elt F)) := opsHead ++ (opsMid ++ opsTail)

-- one hundred and fifty-five binds re-associated: the rewrite under the chain recurses once per statement
set_option maxRecDepth 8192 in
set_option maxHeartbeats 4000000 in
/-- @main is that line: the three windows of statements in order, each outlined function unfolded at its call and
    each call's record at its fields; both sides are one chain of host steps once sequencing is re-associated. -/
theorem main_eq (c : Dev nD) : main (F := F) c = seq ops := by
  simp only [ops, opsHead, opsMid, opsTail, List.cons_append, List.nil_append,
    main, main_part0, main_part1, main_part2, fn_argsort.body, fn_clip.body, fn_cumsum.body, fn_cumsum_0.body,
    fn_clip_1.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsHead_sub, List.forall_append.mpr ⟨opsMid_sub, opsTail_sub⟩⟩

/-- No operation of the line allocates: each determines its results. -/
theorem opsHead_fresh : (opsHead : List (HloOp τ sig (Elt F))).Forall fun op => op.fresh = ∅ := by
  simp only [List.Forall]; repeat' constructor
theorem opsMid_fresh : (opsMid : List (HloOp τ sig (Elt F))).Forall fun op => op.fresh = ∅ := by
  simp only [List.Forall]; repeat' constructor
theorem opsTail_fresh : (opsTail : List (HloOp τ sig (Elt F))).Forall fun op => op.fresh = ∅ := by
  simp only [List.Forall]; repeat' constructor

/-- Every weakly fair execution of the reference terminates without a fault, and every buffer ends at the
    combine's fold, from the contractions' fold, from the routing's fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsTail (after opsMid (after opsHead (launchContents m c))) (Proc.devRef .tc b) := by
  have h := run_seq scopedRefs_eq scopedSems_eq defs main (fun _ => ops) main_eq (fun _ => ops_sub) m ρ
    (fun _ op hop => by
      rcases List.mem_append.mp hop with h | h
      · exact List.forall_iff_forall_mem.mp opsHead_fresh op h
      · rcases List.mem_append.mp h with h | h
        · exact List.forall_iff_forall_mem.mp opsMid_fresh op h
        · exact List.forall_iff_forall_mem.mp opsTail_fresh op h)
  refine (θ_run defs _ _).mono (fun _ hr c b => ?_) h
  rw [hr c b, after_append, after_append]

end Cert.ReferenceIdeal.Hand

end
-- ==== Proof.RMid.lean ====
/-
  The reference between the dispatch and the combine: three batched contractions over the experts, with the gate
  clamped from above, the up projection clamped on both sides, and x · (1 / (1 + e^(-x))) of the gate between the
  first two and the third. Read back from the program's line it is ONE function `mid` of the per-expert token
  buffer and the three weight arrays; entry by entry, over the extended reals, `mid` is the specification's `ffn`:
  the host's contraction over the last axis of both operands, batched over the first, is the sum over the 2048
  (then 1408) shared coordinates of the products, and the host's negate, exponential, add-one and divide spell the
  logistic function.
-/
import proofs.«139148_j89910845375253_1_alg».proof.Proof.RefOps
import proofs.«139148_j89910845375253_1_alg».proof.Proof.Spec
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The gate projection clamped at ten. -/
def midGate (buf : (⟨S8x1024x2048, .f32⟩ : BufTy).Contents (Elt F)) (gw : (⟨S8x1408x2048, .f32⟩ : BufTy).Contents (Elt F)) :
    (⟨S8x1024x1408, .f32⟩ : BufTy).Contents (Elt F) :=
  minimumf (Host.dotGeneral dot_S8x1024x2048_S8x1408x2048_S8x1024x1408_2_2_1_1_0_0 none buf gw)
    (broadcastInDim S8x1024x1408 ![] bcast_S_S8x1024x1408 (constant S_ .f32 0x41200000#32))

/-- The up projection clamped to [-ten, ten]. -/
def midUp (buf : (⟨S8x1024x2048, .f32⟩ : BufTy).Contents (Elt F)) (uw : (⟨S8x1408x2048, .f32⟩ : BufTy).Contents (Elt F)) :
    (⟨S8x1024x1408, .f32⟩ : BufTy).Contents (Elt F) :=
  minimumf (broadcastInDim S8x1024x1408 ![] bcast_S_S8x1024x1408 (constant S_ .f32 0x41200000#32))
    (maximumf (broadcastInDim S8x1024x1408 ![] bcast_S_S8x1024x1408 (constant S_ .f32 0xC1200000#32))
      (Host.dotGeneral dot_S8x1024x2048_S8x1408x2048_S8x1024x1408_2_2_1_1_0_0 none buf uw))

/-- x · (1 / (1 + e^(-x))), as the host spells it. -/
def midSilu (g : (⟨S8x1024x1408, .f32⟩ : BufTy).Contents (Elt F)) : (⟨S8x1024x1408, .f32⟩ : BufTy).Contents (Elt F) :=
  mulf g (Host.divf (broadcastInDim S8x1024x1408 ![] bcast_S_S8x1024x1408 (constant S_ .f32 0x3F800000#32))
    (addf (broadcastInDim S8x1024x1408 ![] bcast_S_S8x1024x1408 (constant S_ .f32 0x3F800000#32)) (Host.exp (Host.negf g))))

/-- The experts' output: the activations against the down weights. -/
def mid (buf : (⟨S8x1024x2048, .f32⟩ : BufTy).Contents (Elt F)) (gw uw : (⟨S8x1408x2048, .f32⟩ : BufTy).Contents (Elt F))
    (dw : (⟨S8x2048x1408, .f32⟩ : BufTy).Contents (Elt F)) : (⟨S8x1024x2048, .f32⟩ : BufTy).Contents (Elt F) :=
  Host.dotGeneral dot_S8x1024x1408_S8x2048x1408_S8x1024x2048_2_2_1_1_0_0 none
    (mulf (midSilu (midGate buf gw)) (midUp buf uw)) dw

-- the contractions and the pointwise operations stay closed while the typed references' casts (the identity at these
-- literal references) are opened
attribute [local irreducible] minimumf maximumf mulf addf Host.divf Host.exp Host.negf broadcastInDim constant in
set_option maxRecDepth 8192 in
/-- The middle line read back at its last buffer, from any contents: `mid` of the buffer the dispatch filled and the
    three weight arrays. -/
theorem mid_result (W : Valuation τ sig (Elt F)) :
    after opsMid W (Proc.devRef .tc main_v79)
      = mid (W (Proc.devRef .tc main_v71)) (W (Proc.devRef .tc main_arg3)) (W (Proc.devRef .tc main_arg4)) (W (Proc.devRef .tc main_arg5)) := by
  unfold mid midSilu midGate midUp
  after_results_simp
  rfl

end Cert.ReferenceIdeal.Hand

end
-- ==== Proof.RTail.lean ====
/-
  The reference after its contractions: the same thirty-two host operations as the kernel program's lines after
  its region — gather each routed row's result out of the experts' output, weight it by the routing gate, add it
  into its token's row. Read back, from ANY contents `H` left by the routing head, the reference's result is the
  combine of the middle's function of the token buffer and the weights and of the four routing arrays, which
  neither the contractions nor the combine write.
-/
import proofs.«139148_j89910845375253_1_alg».proof.Proof.RMid

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The routing index `x` made non-negative: where it is below zero, the extent `n` is added (an index counted from the
    array's end), elsewhere it is kept. -/
def wrap (n : BitVec 32) (x : (⟨S4096, .i32⟩ : BufTy).Contents (Elt F)) : (⟨S4096, .i32⟩ : BufTy).Contents (Elt F) :=
  select (cmpi .slt x (broadcastInDim S4096 ![] bcast_S_S4096 (constantI S_ 32 0#32)))
    (addi x (broadcastInDim S4096 ![] bcast_S_S4096 (constantI S_ 32 n))) x

/-- The combine: each routed row `s` fetches row `(eid s, pos s)` of the experts' output, is weighted by its gate,
    and is added into row `tok s` of a zero array — one function of the experts' output `d` and the four routing arrays. -/
def combine (d : (⟨S8x1024x2048, .f32⟩ : BufTy).Contents (Elt F)) (eid pos tok : (⟨S4096, .i32⟩ : BufTy).Contents (Elt F))
    (gate : (⟨S4096, .f32⟩ : BufTy).Contents (Elt F)) : (⟨S2048x2048, .f32⟩ : BufTy).Contents (Elt F) :=
  Host.scatterAdd scatter_S2048x2048_S4096x1_S4096x2048_1_0_0_1
    (broadcastInDim S2048x2048 ![] bcast_S_S2048x2048 (constant S_ .f32 0x00000000#32))
    (broadcastInDim S4096x1 ![0] bcast_S4096_S4096x1_0 (wrap 2048#32 tok))
    (mulf
      (Host.gather gather_S8x1024x2048_S4096x2_S4096x2048_1_01_n_n_01_1_112048 d
        (concatenate S4096x2 1 [⟨S4096x1, broadcastInDim S4096x1 ![0] bcast_S4096_S4096x1_0 (wrap 8#32 eid)⟩,
          ⟨S4096x1, broadcastInDim S4096x1 ![0] bcast_S4096_S4096x1_0 (wrap 1024#32 pos)⟩] concatenates_S4096x1_S4096x1_S4096x2_d1))
      (broadcastInDim S4096x2048 ![0, 1] bcast_S4096x1_S4096x2048_0_1 (broadcastInDim S4096x1 ![0] bcast_S4096_S4096x1_0 gate)))

/-- The last line read back at the result buffer, from any contents. -/
theorem tail_fold (W : Valuation τ sig (Elt F)) :
    after opsTail W (Proc.devRef .tc main_v104)
      = combine (W (Proc.devRef .tc main_v79)) (W (Proc.devRef .tc main_v12)) (W (Proc.devRef .tc main_v49))
          (W (Proc.devRef .tc main_v19)) (W (Proc.devRef .tc main_v26)) := by
  after_results_simp
  rfl

/-- The contractions' line writes none of the routing arrays. -/
theorem mid_keeps_v12 (W : Valuation τ sig (Elt F)) : after opsMid W (Proc.devRef .tc main_v12) = W (Proc.devRef .tc main_v12) := by
  after_results_simp
theorem mid_keeps_v49 (W : Valuation τ sig (Elt F)) : after opsMid W (Proc.devRef .tc main_v49) = W (Proc.devRef .tc main_v49) := by
  after_results_simp
theorem mid_keeps_v19 (W : Valuation τ sig (Elt F)) : after opsMid W (Proc.devRef .tc main_v19) = W (Proc.devRef .tc main_v19) := by
  after_results_simp
theorem mid_keeps_v26 (W : Valuation τ sig (Elt F)) : after opsMid W (Proc.devRef .tc main_v26) = W (Proc.devRef .tc main_v26) := by
  after_results_simp

/-- The reference's result from the routing head's contents `H`. -/
theorem result_of_head (H : Valuation τ sig (Elt F)) :
    after opsTail (after opsMid H) (Proc.devRef .tc main_v104)
      = combine (mid (H (Proc.devRef .tc main_v71)) (H (Proc.devRef .tc main_arg3)) (H (Proc.devRef .tc main_arg4)) (H (Proc.devRef .tc main_arg5)))
          (H (Proc.devRef .tc main_v12)) (H (Proc.devRef .tc main_v49)) (H (Proc.devRef .tc main_v19)) (H (Proc.devRef .tc main_v26)) := by
  rw [tail_fold, mid_result, mid_keeps_v12, mid_keeps_v49, mid_keeps_v19, mid_keeps_v26]

end Cert.ReferenceIdeal.Hand

end
-- ==== Proof.RMidValue.lean ====
/-
  Entry by entry over the extended reals, the reference's three batched contractions with the clamps and
  x · (1 / (1 + e^(-x))) between them are the specification: the host's contraction over the last axis of both
  operands, batched over the experts, is the sum over the shared coordinate of the products, and negate, exponential,
  add one and divide spell the logistic function.
-/
import proofs.«139148_j89910845375253_1_alg».proof.Proof.RMid
import Idealize.ShloMosaic.PureOps.Ideal.Laws
import Idealize.ShloMosaic.Lib.ValueIdx
import Idealize.ShloMosaic.Lib.IdealHost

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## A batched contraction over the last axis of both operands, read at an entry -/

section Contraction
variable {G m n k : Nat} {φ₁ φ₂ : FTy}

/-- Two axes with the same number carry the same coordinate of an index. -/
theorem coord_congr {S : Shape} (j : S.Idx) {a b : Fin S.rank} (h : a.val = b.val) : (j a).val = (j b).val := by
  have e : a = b := Fin.ext h
  subst e; rfl

/-- The dimension numbers of a batched contraction over the last axis of both operands: batch axis 0 of both, free axis 1 of
    both, contracted axis 2 of both. -/
abbrev lastAxes (w : DotDims.WF ⟨3, ![G, m, k]⟩ ⟨3, ![G, n, k]⟩ ⟨3, ![G, m, n]⟩ [2] [2] [1] [1] [0] [0]) :
    DotDims ⟨3, ![G, m, k]⟩ ⟨3, ![G, n, k]⟩ ⟨3, ![G, m, n]⟩ := ⟨[2], [2], [1], [1], [0], [0], w⟩

variable (w : DotDims.WF ⟨3, ![G, m, k]⟩ ⟨3, ![G, n, k]⟩ ⟨3, ![G, m, n]⟩ [2] [2] [1] [1] [0] [0])

/-- The left operand's batch coordinate is the result's first. -/
theorem lhs_batch (j : (⟨3, ![G, m, n]⟩ : Shape).Idx) (q : (lastAxes w).contr.Idx) :
    ((lastAxes w).lhsIdx j q 0).val = (j 0).val := by
  unfold DotDims.lhsIdx
  rw [dif_pos (show (0 : Fin 3) ∈ [(0 : Fin 3)] from List.mem_singleton.mpr rfl)]
  simp only [Fin.val_cast]
  exact coord_congr j (by simp)

/-- The left operand's free coordinate is the result's second. -/
theorem lhs_free (j : (⟨3, ![G, m, n]⟩ : Shape).Idx) (q : (lastAxes w).contr.Idx) :
    ((lastAxes w).lhsIdx j q 1).val = (j 1).val := by
  unfold DotDims.lhsIdx
  rw [dif_neg (show ¬(1 : Fin 3) ∈ [(0 : Fin 3)] by decide),
    dif_pos (show (1 : Fin 3) ∈ [(1 : Fin 3)] from List.mem_singleton.mpr rfl)]
  simp only [Fin.val_cast]
  exact coord_congr j (by simp)

/-- The left operand's last coordinate is the contraction position. -/
theorem lhs_contr (j : (⟨3, ![G, m, n]⟩ : Shape).Idx) (q : (lastAxes w).contr.Idx) :
    ((lastAxes w).lhsIdx j q 2).val = (q ⟨0, Nat.one_pos⟩).val :=
  (lastAxes w).lhsIdx_val_of_single (cl := 2) rfl j q

/-- The right operand's batch coordinate is the result's first. -/
theorem rhs_batch (j : (⟨3, ![G, m, n]⟩ : Shape).Idx) (q : (lastAxes w).contr.Idx) :
    ((lastAxes w).rhsIdx j q 0).val = (j 0).val := by
  unfold DotDims.rhsIdx
  rw [dif_pos (show (0 : Fin 3) ∈ [(0 : Fin 3)] from List.mem_singleton.mpr rfl)]
  simp only [Fin.val_cast]
  exact coord_congr j (by simp)

/-- The right operand's free coordinate is the result's third. -/
theorem rhs_free (j : (⟨3, ![G, m, n]⟩ : Shape).Idx) (q : (lastAxes w).contr.Idx) :
    ((lastAxes w).rhsIdx j q 1).val = (j 2).val := by
  unfold DotDims.rhsIdx
  rw [dif_neg (show ¬(1 : Fin 3) ∈ [(0 : Fin 3)] by decide),
    dif_pos (show (1 : Fin 3) ∈ [(1 : Fin 3)] from List.mem_singleton.mpr rfl)]
  simp only [Fin.val_cast]
  exact coord_congr j (by simp)

/-- The right operand's last coordinate is the contraction position. -/
theorem rhs_contr (j : (⟨3, ![G, m, n]⟩ : Shape).Idx) (q : (lastAxes w).contr.Idx) :
    ((lastAxes w).rhsIdx j q 2).val = (q ⟨0, Nat.one_pos⟩).val :=
  (lastAxes w).rhsIdx_val_of_single (cr := 2) rfl j q

/-- Over the extended reals the host's batched contraction over the last axis of both operands, read at entry (g, a, b), is
    the sum over the shared coordinate c of A (g, a, c) · B (g, b, c). -/
theorem dot_lastAxes_apply (prec : Option ContractPrecision) (A : FVec Ideal ⟨3, ![G, m, k]⟩ φ₁) (B : FVec Ideal ⟨3, ![G, n, k]⟩ φ₂)
    (g : Fin G) (a : Fin m) (b : Fin n) :
    Host.dotGeneral (lastAxes w) prec A B (ix3 g a b) = ∑ c : Fin k, A (ix3 g a c) * B (ix3 g b c) := by
  show FloatOps.dotGeneral _ prec _ A B (ix3 g a b) = _
  rw [Ideal.dotGeneral_apply, ← Equiv.sum_comp (contrEquiv1 (lastAxes w) k rfl rfl).symm]
  refine Finset.sum_congr rfl fun c _ => ?_
  have hc := contrEquiv1_symm_val (lastAxes w) k rfl rfl c
  have hl : (lastAxes w).lhsIdx (ix3 g a b) ((contrEquiv1 (lastAxes w) k rfl rfl).symm c) = ix3 g a c := by
    funext ax; apply Fin.ext
    match ax with
    | ⟨0, _⟩ => exact lhs_batch w _ _
    | ⟨1, _⟩ => exact lhs_free w _ _
    | ⟨2, _⟩ => exact (lhs_contr w _ _).trans hc
  have hr : (lastAxes w).rhsIdx (ix3 g a b) ((contrEquiv1 (lastAxes w) k rfl rfl).symm c) = ix3 g b c := by
    funext ax; apply Fin.ext
    match ax with
    | ⟨0, _⟩ => exact rhs_batch w _ _
    | ⟨1, _⟩ => exact rhs_free w _ _
    | ⟨2, _⟩ => exact (rhs_contr w _ _).trans hc
  rw [hl, hr]

end Contraction

/-! ## The reference's middle, entry by entry -/

/-- A projection before its clamp: the token row (e, r) against row (e, c) of the expert's weights. -/
theorem pre_apply (buf : (⟨S8x1024x2048, .f32⟩ : BufTy).Contents (Elt Ideal)) (wt : (⟨S8x1408x2048, .f32⟩ : BufTy).Contents (Elt Ideal))
    (e : Fin 8) (r : Fin 1024) (c : Fin 1408) :
    Host.dotGeneral (F := Ideal) (φ₁ := .f32) (φ₂ := .f32) dot_S8x1024x2048_S8x1408x2048_S8x1024x1408_2_2_1_1_0_0 none buf wt (ix3 e r c)
      = Cert.Spec.preRow (Cert.Spec.at3 buf e r) (Cert.Spec.at3 wt e) c :=
  dot_lastAxes_apply (φ₁ := .f32) (φ₂ := .f32) _ none buf wt e r c

/-- The gate entry: the projection clamped from above at ten. -/
theorem midGate_apply (buf : (⟨S8x1024x2048, .f32⟩ : BufTy).Contents (Elt Ideal)) (gw : (⟨S8x1408x2048, .f32⟩ : BufTy).Contents (Elt Ideal))
    (e : Fin 8) (r : Fin 1024) (c : Fin 1408) :
    midGate (F := Ideal) buf gw (ix3 e r c)
      = min (Cert.Spec.preRow (Cert.Spec.at3 buf e r) (Cert.Spec.at3 gw e) c) Cert.Spec.ten := by
  unfold midGate
  rw [minimumf_apply, pre_apply, broadcastInDim_scalar_apply, constant_apply]

/-- The up entry: the projection clamped to [-ten, ten]. -/
theorem midUp_apply (buf : (⟨S8x1024x2048, .f32⟩ : BufTy).Contents (Elt Ideal)) (uw : (⟨S8x1408x2048, .f32⟩ : BufTy).Contents (Elt Ideal))
    (e : Fin 8) (r : Fin 1024) (c : Fin 1408) :
    midUp (F := Ideal) buf uw (ix3 e r c)
      = min Cert.Spec.ten (max Cert.Spec.negTen (Cert.Spec.preRow (Cert.Spec.at3 buf e r) (Cert.Spec.at3 uw e) c)) := by
  unfold midUp
  rw [minimumf_apply, maximumf_apply, pre_apply, broadcastInDim_scalar_apply, broadcastInDim_scalar_apply, constant_apply,
    constant_apply]

/-- Negate, exponential, add one and divide are the logistic function: x · (1 / (1 + e^(-x))) at an entry is the entry times
    its logistic. -/
theorem midSilu_apply (g : (⟨S8x1024x1408, .f32⟩ : BufTy).Contents (Elt Ideal)) (i : S8x1024x1408.Idx) :
    midSilu (F := Ideal) g i = g i * Ideal.logistic (g i) := by
  unfold midSilu
  rw [mulf_apply, hostDivf_apply, addf_apply, broadcastInDim_scalar_apply, constant_apply, Ideal.ofBits_one_f32]
  rfl

/-- The hidden activation at an entry is the specification's. -/
theorem act_apply (buf : (⟨S8x1024x2048, .f32⟩ : BufTy).Contents (Elt Ideal)) (gw uw : (⟨S8x1408x2048, .f32⟩ : BufTy).Contents (Elt Ideal))
    (e : Fin 8) (r : Fin 1024) (c : Fin 1408) :
    mulf (midSilu (F := Ideal) (midGate buf gw)) (midUp buf uw) (ix3 e r c)
      = Cert.Spec.actRow (Cert.Spec.at3 buf e r) (Cert.Spec.at3 gw e) (Cert.Spec.at3 uw e) c := by
  rw [mulf_apply, midSilu_apply, midGate_apply, midUp_apply]
  rfl

/-- Entry by entry over the extended reals, the reference's middle is the specification. -/
theorem mid_value (buf : (⟨S8x1024x2048, .f32⟩ : BufTy).Contents (Elt Ideal)) (gw uw : (⟨S8x1408x2048, .f32⟩ : BufTy).Contents (Elt Ideal))
    (dw : (⟨S8x2048x1408, .f32⟩ : BufTy).Contents (Elt Ideal)) (e : Fin 8) (r : Fin 1024) (j : Fin 2048) :
    mid (F := Ideal) buf gw uw dw (ValueIdx.ix3 e r j)
      = Cert.Spec.ffn (Cert.Spec.at3 buf) (Cert.Spec.at3 gw) (Cert.Spec.at3 uw) (Cert.Spec.at3 dw) e r j := by
  unfold mid
  refine (dot_lastAxes_apply (φ₁ := .f32) (φ₂ := .f32) _ none _ dw e r j).trans ?_
  unfold Cert.Spec.ffn Cert.Spec.ffnRow
  exact Finset.sum_congr rfl fun c _ => congrArg (· * dw (ix3 e j c)) (act_apply buf gw uw e r c)

end Cert.ReferenceIdeal.Hand

end
-- ==== Proof.RArgs.lean ====
/-
  No operation of the reference writes an argument array: each of the one hundred and fifty-five results goes to a
  buffer of its own. So after the whole line each argument buffer holds what it held at the launch, which is the
  reference's frame once its run is known to terminate without a fault.
-/
import proofs.«139148_j89910845375253_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem head_keeps_arg0 (L : Valuation τ sig (Elt F)) : after opsHead L (Proc.devRef .tc main_arg0) = L (Proc.devRef .tc main_arg0) := by
  after_results_simp
theorem mid_keeps_arg0 (L : Valuation τ sig (Elt F)) : after opsMid L (Proc.devRef .tc main_arg0) = L (Proc.devRef .tc main_arg0) := by
  after_results_simp
theorem tail_keeps_arg0 (L : Valuation τ sig (Elt F)) : after opsTail L (Proc.devRef .tc main_arg0) = L (Proc.devRef .tc main_arg0) := by
  after_results_simp
/-- Argument 0 stands at its launch contents after the whole line. -/
theorem keeps_arg0 (L : Valuation τ sig (Elt F)) :
    after opsTail (after opsMid (after opsHead L)) (Proc.devRef .tc main_arg0) = L (Proc.devRef .tc main_arg0) := by
  rw [tail_keeps_arg0, mid_keeps_arg0, head_keeps_arg0]

theorem head_keeps_arg1 (L : Valuation τ sig (Elt F)) : after opsHead L (Proc.devRef .tc main_arg1) = L (Proc.devRef .tc main_arg1) := by
  after_results_simp
theorem mid_keeps_arg1 (L : Valuation τ sig (Elt F)) : after opsMid L (Proc.devRef .tc main_arg1) = L (Proc.devRef .tc main_arg1) := by
  after_results_simp
theorem tail_keeps_arg1 (L : Valuation τ sig (Elt F)) : after opsTail L (Proc.devRef .tc main_arg1) = L (Proc.devRef .tc main_arg1) := by
  after_results_simp
/-- Argument 1 stands at its launch contents after the whole line. -/
theorem keeps_arg1 (L : Valuation τ sig (Elt F)) :
    after opsTail (after opsMid (after opsHead L)) (Proc.devRef .tc main_arg1) = L (Proc.devRef .tc main_arg1) := by
  rw [tail_keeps_arg1, mid_keeps_arg1, head_keeps_arg1]

theorem head_keeps_arg2 (L : Valuation τ sig (Elt F)) : after opsHead L (Proc.devRef .tc main_arg2) = L (Proc.devRef .tc main_arg2) := by
  after_results_simp
theorem mid_keeps_arg2 (L : Valuation τ sig (Elt F)) : after opsMid L (Proc.devRef .tc main_arg2) = L (Proc.devRef .tc main_arg2) := by
  after_results_simp
theorem tail_keeps_arg2 (L : Valuation τ sig (Elt F)) : after opsTail L (Proc.devRef .tc main_arg2) = L (Proc.devRef .tc main_arg2) := by
  after_results_simp
/-- Argument 2 stands at its launch contents after the whole line. -/
theorem keeps_arg2 (L : Valuation τ sig (Elt F)) :
    after opsTail (after opsMid (after opsHead L)) (Proc.devRef .tc main_arg2) = L (Proc.devRef .tc main_arg2) := by
  rw [tail_keeps_arg2, mid_keeps_arg2, head_keeps_arg2]

theorem head_keeps_arg3 (L : Valuation τ sig (Elt F)) : after opsHead L (Proc.devRef .tc main_arg3) = L (Proc.devRef .tc main_arg3) := by
  after_results_simp
theorem mid_keeps_arg3 (L : Valuation τ sig (Elt F)) : after opsMid L (Proc.devRef .tc main_arg3) = L (Proc.devRef .tc main_arg3) := by
  after_results_simp
theorem tail_keeps_arg3 (L : Valuation τ sig (Elt F)) : after opsTail L (Proc.devRef .tc main_arg3) = L (Proc.devRef .tc main_arg3) := by
  after_results_simp
/-- Argument 3 stands at its launch contents after the whole line. -/
theorem keeps_arg3 (L : Valuation τ sig (Elt F)) :
    after opsTail (after opsMid (after opsHead L)) (Proc.devRef .tc main_arg3) = L (Proc.devRef .tc main_arg3) := by
  rw [tail_keeps_arg3, mid_keeps_arg3, head_keeps_arg3]

theorem head_keeps_arg4 (L : Valuation τ sig (Elt F)) : after opsHead L (Proc.devRef .tc main_arg4) = L (Proc.devRef .tc main_arg4) := by
  after_results_simp
theorem mid_keeps_arg4 (L : Valuation τ sig (Elt F)) : after opsMid L (Proc.devRef .tc main_arg4) = L (Proc.devRef .tc main_arg4) := by
  after_results_simp
theorem tail_keeps_arg4 (L : Valuation τ sig (Elt F)) : after opsTail L (Proc.devRef .tc main_arg4) = L (Proc.devRef .tc main_arg4) := by
  after_results_simp
/-- Argument 4 stands at its launch contents after the whole line. -/
theorem keeps_arg4 (L : Valuation τ sig (Elt F)) :
    after opsTail (after opsMid (after opsHead L)) (Proc.devRef .tc main_arg4) = L (Proc.devRef .tc main_arg4) := by
  rw [tail_keeps_arg4, mid_keeps_arg4, head_keeps_arg4]

theorem head_keeps_arg5 (L : Valuation τ sig (Elt F)) : after opsHead L (Proc.devRef .tc main_arg5) = L (Proc.devRef .tc main_arg5) := by
  after_results_simp
theorem mid_keeps_arg5 (L : Valuation τ sig (Elt F)) : after opsMid L (Proc.devRef .tc main_arg5) = L (Proc.devRef .tc main_arg5) := by
  after_results_simp
theorem tail_keeps_arg5 (L : Valuation τ sig (Elt F)) : after opsTail L (Proc.devRef .tc main_arg5) = L (Proc.devRef .tc main_arg5) := by
  after_results_simp
/-- Argument 5 stands at its launch contents after the whole line. -/
theorem keeps_arg5 (L : Valuation τ sig (Elt F)) :
    after opsTail (after opsMid (after opsHead L)) (Proc.devRef .tc main_arg5) = L (Proc.devRef .tc main_arg5) := by
  rw [tail_keeps_arg5, mid_keeps_arg5, head_keeps_arg5]

end Cert.ReferenceIdeal.Hand

end
-- ==== Proof.BridgeA.lean ====
/-
  The routing head is the same computation in both programs: reshape the expert ids, sort them stably with their
  positions, gather ids, token indices and gates through the sorting permutation, count the ids per expert, turn the
  counts into group starts, subtract each row's group start from its rank, gather the token rows and scatter them
  into the per-expert buffer. Statement by statement the two programs apply the same operations to the same
  arguments, so from memories that agree on the arguments they leave the same five arrays. The kernel program also
  narrows the gathered rows and the weights to the 16-bit format and starts its buffer from that format's zero word;
  over the extended reals a narrowing is the identity and both zero words are zero.
-/
import proofs.«139148_j89910845375253_1_alg».proof.Proof.Gen.KernelIdeal.Frame
import proofs.«139148_j89910845375253_1_alg».proof.Proof.RefRun
import Idealize.ShloMosaic.PureOps.Ideal
import Idealize.ShloMosaic.PureOps.Ideal.Laws

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

attribute [local irreducible] Host.sort2 Host.gather Host.scatter Host.reduceWindow in
set_option maxRecDepth 8192 in
set_option maxHeartbeats 2000000 in
/-- The sorted expert ids: the ids gathered through the stable sorting permutation. -/
theorem head_eid
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    Cert.KernelIdeal.Gen.V m c Cert.KernelIdeal.main_v12
      = after Cert.ReferenceIdeal.Hand.opsHead (launchContents m' c) (Proc.devRef .tc Cert.ReferenceIdeal.main_v12) := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5, Cert.KernelIdeal.Gen.hostOps0_6,
    List.flatten_cons, List.flatten_nil, List.append_nil, List.cons_append, List.nil_append]
  after_results_simp
  have e1 : launchContents m' c (Proc.devRef .tc Cert.ReferenceIdeal.main_arg1) = m (c, Proc.devRef .tc Cert.KernelIdeal.main_arg1) := h1
  rw [e1]
  rfl

attribute [local irreducible] Host.sort2 Host.gather Host.scatter Host.reduceWindow in
set_option maxRecDepth 8192 in
set_option maxHeartbeats 2000000 in
/-- The sorted token indices: each row's token gathered through the same permutation. -/
theorem head_tok
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    Cert.KernelIdeal.Gen.V m c Cert.KernelIdeal.main_v19
      = after Cert.ReferenceIdeal.Hand.opsHead (launchContents m' c) (Proc.devRef .tc Cert.ReferenceIdeal.main_v19) := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5, Cert.KernelIdeal.Gen.hostOps0_6,
    List.flatten_cons, List.flatten_nil, List.append_nil, List.cons_append, List.nil_append]
  after_results_simp
  have e1 : launchContents m' c (Proc.devRef .tc Cert.ReferenceIdeal.main_arg1) = m (c, Proc.devRef .tc Cert.KernelIdeal.main_arg1) := h1
  rw [e1]
  rfl

attribute [local irreducible] Host.sort2 Host.gather Host.scatter Host.reduceWindow in
set_option maxRecDepth 8192 in
set_option maxHeartbeats 2000000 in
/-- The sorted gates. -/
theorem head_gate
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)) :
    Cert.KernelIdeal.Gen.V m c Cert.KernelIdeal.main_v26
      = after Cert.ReferenceIdeal.Hand.opsHead (launchContents m' c) (Proc.devRef .tc Cert.ReferenceIdeal.main_v26) := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5, Cert.KernelIdeal.Gen.hostOps0_6,
    List.flatten_cons, List.flatten_nil, List.append_nil, List.cons_append, List.nil_append]
  after_results_simp
  have e1 : launchContents m' c (Proc.devRef .tc Cert.ReferenceIdeal.main_arg1) = m (c, Proc.devRef .tc Cert.KernelIdeal.main_arg1) := h1
  have e2 : launchContents m' c (Proc.devRef .tc Cert.ReferenceIdeal.main_arg2) = m (c, Proc.devRef .tc Cert.KernelIdeal.main_arg2) := h2
  rw [e1, e2]
  rfl

end Cert.Bridge

end
-- ==== Proof.LibCatTwo.lean ====
/-
  A concatenation of two arrays as a FUNCTION of the two arrays.

  The library's `concatenate` takes its operands as a list of (shape, array) pairs and a side fact about the list of
  their shapes. That fact's statement mentions the operand list, so a rewriting pass cannot replace an operand in place:
  it would change the statement the fact proves. The shapes do not depend on the arrays, though. Stated over the shapes
  alone, the same concatenation is a function `catTwo` of its two arrays with the fact as a parameter before them, and
  the arrays become ordinary arguments that can be rewritten. Nothing here mentions a program; any two-operand
  concatenation of any element type reads this way.
-/
import Idealize.ShloMosaic.PureOps.ShapeOps

namespace Idealize.ShloMosaic

/-- The concatenation of `a` (shape `S₁`) and `b` (shape `S₂`) along axis `ax` of `T`, the side fact stated over the two
    shapes only. -/
def catTwo {α : Type} (S₁ S₂ T : Shape) (ax : Fin T.rank) (h : Shape.Concatenates [S₁, S₂] T ax)
    (a : S₁.Idx → α) (b : S₂.Idx → α) : T.Idx → α :=
  concatenate T ax [⟨S₁, a⟩, ⟨S₂, b⟩] h

/-- A two-operand concatenation is `catTwo` of its operands. -/
theorem concatenate_two {α : Type} (S₁ S₂ T : Shape) (ax : Fin T.rank) (h : Shape.Concatenates [S₁, S₂] T ax)
    (a : S₁.Idx → α) (b : S₂.Idx → α) :
    concatenate T ax [⟨S₁, a⟩, ⟨S₂, b⟩] h = catTwo S₁ S₂ T ax h a b := rfl

end Idealize.ShloMosaic
-- ==== Proof.BridgePos.lean ====
/-
  The routing head is the same computation in both programs (here: the positions inside the groups): reshape the expert ids, sort them stably with their
  positions, gather ids, token indices and gates through the sorting permutation, count the ids per expert, turn the
  counts into group starts, subtract each row's group start from its rank, gather the token rows and scatter them
  into the per-expert buffer. Statement by statement the two programs apply the same operations to the same
  arguments, so from memories that agree on the arguments they leave the same five arrays. The kernel program also
  narrows the gathered rows and the weights to the 16-bit format and starts its buffer from that format's zero word;
  over the extended reals a narrowing is the identity and both zero words are zero.
-/
import proofs.«139148_j89910845375253_1_alg».proof.Proof.Gen.KernelIdeal.Frame
import proofs.«139148_j89910845375253_1_alg».proof.Proof.RefRun
import proofs.«139148_j89910845375253_1_alg».proof.Proof.LibCatTwo
import Idealize.ShloMosaic.PureOps.Ideal
import Idealize.ShloMosaic.PureOps.Ideal.Laws

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

-- each concatenation is first read as a function of its two operands (the side fact about the shapes stays put), so
-- that reading the line back can reach the operands
attribute [local irreducible] Host.sort2 Host.gather Host.scatter Host.reduceWindow in
set_option maxRecDepth 8192 in
set_option maxHeartbeats 2000000 in
/-- Each sorted row's position inside its expert's group: its rank minus the group's start. -/
theorem head_pos
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    Cert.KernelIdeal.Gen.V m c Cert.KernelIdeal.main_v49
      = after Cert.ReferenceIdeal.Hand.opsHead (launchContents m' c) (Proc.devRef .tc Cert.ReferenceIdeal.main_v49) := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5, Cert.KernelIdeal.Gen.hostOps0_6,
    List.flatten_cons, List.flatten_nil, List.append_nil, List.cons_append, List.nil_append,
    Cert.ReferenceIdeal.Hand.opsHead, concatenate_two]
  after_results_simp
  have e1 : launchContents m' c (Proc.devRef .tc Cert.ReferenceIdeal.main_arg1) = m (c, Proc.devRef .tc Cert.KernelIdeal.main_arg1) := h1
  rw [e1]
  rfl

end Cert.Bridge

end
-- ==== Proof.BridgeBuf.lean ====
/-
  The routing head is the same computation in both programs (here: the per-expert token buffer): reshape the expert ids, sort them stably with their
  positions, gather ids, token indices and gates through the sorting permutation, count the ids per expert, turn the
  counts into group starts, subtract each row's group start from its rank, gather the token rows and scatter them
  into the per-expert buffer. Statement by statement the two programs apply the same operations to the same
  arguments, so from memories that agree on the arguments they leave the same five arrays. The kernel program also
  narrows the gathered rows and the weights to the 16-bit format and starts its buffer from that format's zero word;
  over the extended reals a narrowing is the identity and both zero words are zero.
-/
import proofs.«139148_j89910845375253_1_alg».proof.Proof.Gen.KernelIdeal.Frame
import proofs.«139148_j89910845375253_1_alg».proof.Proof.RefRun
import proofs.«139148_j89910845375253_1_alg».proof.Proof.LibCatTwo
import Idealize.ShloMosaic.PureOps.Ideal
import Idealize.ShloMosaic.PureOps.Ideal.Laws

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The 16-bit format's zero word is zero. -/
theorem zero_bf16 (S : Shape) : constant (F := Ideal) S .bf16 0x0000#16 = fun _ => (0 : EReal) := by
  funext _; simp [constant, Ideal.ofBits, Ideal.ieee]

/-- The 32-bit format's zero word is zero. -/
theorem zero_f32 (S : Shape) : constant (F := Ideal) S .f32 0x00000000#32 = fun _ => (0 : EReal) := by
  funext _; simp [constant, Ideal.ofBits, Ideal.ieee]

-- each concatenation is first read as a function of its two operands (the side fact about the shapes stays put), so
-- that reading the line back can reach the operands
attribute [local irreducible] Host.sort2 Host.gather Host.scatter Host.reduceWindow in
set_option maxRecDepth 8192 in
set_option maxHeartbeats 2000000 in
/-- The per-expert token buffer: the gathered token rows scattered to (expert, position). -/
theorem head_buf
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    Cert.KernelIdeal.Gen.V m c Cert.KernelIdeal.main_v72
      = after Cert.ReferenceIdeal.Hand.opsHead (launchContents m' c) (Proc.devRef .tc Cert.ReferenceIdeal.main_v71) := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5, Cert.KernelIdeal.Gen.hostOps0_6,
    List.flatten_cons, List.flatten_nil, List.append_nil, List.cons_append, List.nil_append,
    Cert.ReferenceIdeal.Hand.opsHead, concatenate_two]
  after_results_simp
  have e0 : launchContents m' c (Proc.devRef .tc Cert.ReferenceIdeal.main_arg0) = m (c, Proc.devRef .tc Cert.KernelIdeal.main_arg0) := h0
  have e1 : launchContents m' c (Proc.devRef .tc Cert.ReferenceIdeal.main_arg1) = m (c, Proc.devRef .tc Cert.KernelIdeal.main_arg1) := h1
  rw [e0, e1]
  rw [zero_bf16, zero_f32]
  rfl

end Cert.Bridge

end
-- ==== Proof.BridgeW.lean ====
/-
  The three weight arrays as the kernel's region finds them: the program narrows each argument array to the 16-bit
  format before the launch, and over the extended reals a narrowing is the identity, so entry by entry the region's
  weight arrays are the arguments themselves.
-/
import proofs.«139148_j89910845375253_1_alg».proof.Proof.Gen.KernelIdeal.Frame
import proofs.«139148_j89910845375253_1_alg».proof.Proof.RefRun
import Idealize.ShloMosaic.PureOps.Ideal
import Idealize.ShloMosaic.PureOps.Ideal.Laws

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxRecDepth 8192 in
set_option maxHeartbeats 2000000 in
/-- The gate weights the region reads are the third argument. -/
theorem head_gw (i : Cert.KernelIdeal.S8x1408x2048.Idx) :
    Cert.KernelIdeal.Gen.V m c Cert.KernelIdeal.main_v73 i
      = m ((c.tc : Thread Cert.KernelIdeal.nD Cert.KernelIdeal.τ).loc Cert.KernelIdeal.main_arg3) i := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5, Cert.KernelIdeal.Gen.hostOps0_6,
    List.flatten_cons, List.flatten_nil, List.append_nil, List.cons_append, List.nil_append]
  after_results_simp
  rfl

set_option maxRecDepth 8192 in
set_option maxHeartbeats 2000000 in
/-- The up weights the region reads are the fourth argument. -/
theorem head_uw (i : Cert.KernelIdeal.S8x1408x2048.Idx) :
    Cert.KernelIdeal.Gen.V m c Cert.KernelIdeal.main_v74 i
      = m ((c.tc : Thread Cert.KernelIdeal.nD Cert.KernelIdeal.τ).loc Cert.KernelIdeal.main_arg4) i := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5, Cert.KernelIdeal.Gen.hostOps0_6,
    List.flatten_cons, List.flatten_nil, List.append_nil, List.cons_append, List.nil_append]
  after_results_simp
  rfl

set_option maxRecDepth 8192 in
set_option maxHeartbeats 2000000 in
/-- The down weights the region reads are the fifth argument. -/
theorem head_dw (i : Cert.KernelIdeal.S8x2048x1408.Idx) :
    Cert.KernelIdeal.Gen.V m c Cert.KernelIdeal.main_v75 i
      = m ((c.tc : Thread Cert.KernelIdeal.nD Cert.KernelIdeal.τ).loc Cert.KernelIdeal.main_arg5) i := by
  dsimp only [Cert.KernelIdeal.Gen.V, Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5, Cert.KernelIdeal.Gen.hostOps0_6,
    List.flatten_cons, List.flatten_nil, List.append_nil, List.cons_append, List.nil_append]
  after_results_simp
  rfl

end Cert.Bridge

end
-- ==== Proof.lean ====
/-
  The certificate of the sorted-token mixture-of-experts layer.

  Both programs route the 4096 (token, slot) rows identically: a stable sort of the expert ids gives each row its
  expert, its position inside the expert's group, its token and its gate; the token rows are scattered into a
  per-expert buffer of 1024 rows; after the experts' feed-forward the rows are gathered back, weighted by their gates
  and added into their tokens' rows. They differ only between the scatter and the gather. The kernel program runs one
  region over the 8 x 8 grid of (expert, 128-row tile): each point contracts its tile against the expert's gate and up
  weights, clamps, multiplies gate · logistic(gate) by up, and contracts against the down weights. The reference does
  the same with three contractions batched over the experts. Entry by entry over the extended reals both are the
  function `Cert.Spec.ffn` of the token buffer and the weights: the sums run over the same coordinates in the same
  order, the device's logistic is 1 / (1 + e^(-x)) as the host spells it, and the kernel's narrowings to the 16-bit
  format are the identity. Nothing here needs an entry to be finite, so the precondition is never opened.

  The frames of the two kernel programs are the generated ones. The reference is a straight line of host operations,
  none of which writes an argument: its run terminates with every buffer at the line's fold over the launch contents.
  The ideal pass rewrote nothing, so the kernel's idealization is its own text.
-/
import proofs.«139148_j89910845375253_1_alg».proof.Defs
import proofs.«139148_j89910845375253_1_alg».proof.Proof.Gen.Kernel
import proofs.«139148_j89910845375253_1_alg».proof.Proof.Gen.Kernel.Frame
import proofs.«139148_j89910845375253_1_alg».proof.Proof.Gen.KernelIdeal
import proofs.«139148_j89910845375253_1_alg».proof.Proof.Gen.KernelIdeal.Frame
import proofs.«139148_j89910845375253_1_alg».proof.Proof.Gen.ReferenceIdeal
import proofs.«139148_j89910845375253_1_alg».proof.Proof.Gen.Pre_finite_inputs
import proofs.«139148_j89910845375253_1_alg».proof.Proof.KTail
import proofs.«139148_j89910845375253_1_alg».proof.Proof.KRegion
import proofs.«139148_j89910845375253_1_alg».proof.Proof.RefRun
import proofs.«139148_j89910845375253_1_alg».proof.Proof.RTail
import proofs.«139148_j89910845375253_1_alg».proof.Proof.RMidValue
import proofs.«139148_j89910845375253_1_alg».proof.Proof.RArgs
import proofs.«139148_j89910845375253_1_alg».proof.Proof.BridgeA
import proofs.«139148_j89910845375253_1_alg».proof.Proof.BridgePos
import proofs.«139148_j89910845375253_1_alg».proof.Proof.BridgeBuf
import proofs.«139148_j89910845375253_1_alg».proof.Proof.BridgeW
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- The reference terminates without a fault, and no operation of its line writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.keeps_arg0 _),
     (h c Cert.ReferenceIdeal.main_arg1).trans (Cert.ReferenceIdeal.Hand.keeps_arg1 _),
     (h c Cert.ReferenceIdeal.main_arg2).trans (Cert.ReferenceIdeal.Hand.keeps_arg2 _),
     (h c Cert.ReferenceIdeal.main_arg3).trans (Cert.ReferenceIdeal.Hand.keeps_arg3 _),
     (h c Cert.ReferenceIdeal.main_arg4).trans (Cert.ReferenceIdeal.Hand.keeps_arg4 _),
     (h c Cert.ReferenceIdeal.main_arg5).trans (Cert.ReferenceIdeal.Hand.keeps_arg5 _)⟩)
    (Cert.ReferenceIdeal.Hand.run (F := Ideal) m ρ)

/-- The ideal pass rewrote no operation. -/
theorem preserves : Cert.preserves_Kernel_KernelIdeal := trivial

-- the gather and the scatter-add stay closed: the two combines differ only in which program's copy of the index
-- records they name, and those copies are the same records
attribute [local irreducible] Host.scatterAdd Host.gather in
/-- The two programs' combines are one function. -/
theorem combine_eq (d : (⟨Cert.ReferenceIdeal.S8x1024x2048, .f32⟩ : BufTy).Contents (Elt Ideal))
    (eid pos tok : (⟨Cert.ReferenceIdeal.S4096, .i32⟩ : BufTy).Contents (Elt Ideal))
    (gate : (⟨Cert.ReferenceIdeal.S4096, .f32⟩ : BufTy).Contents (Elt Ideal)) :
    Cert.ReferenceIdeal.Hand.combine (F := Ideal) d eid pos tok gate
      = Cert.KernelIdeal.Hand.combine (F := Ideal) d eid pos tok gate := rfl

/-- From memories that agree on the arguments, the reference's middle is the kernel region's output array. -/
theorem mid_eq_region (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (i : Cert.ReferenceIdeal.S8x1024x2048.Idx) :
    Cert.ReferenceIdeal.Hand.mid (F := Ideal)
        (after Cert.ReferenceIdeal.Hand.opsHead (launchContents m' c) (Proc.devRef .tc Cert.ReferenceIdeal.main_v71))
        (after Cert.ReferenceIdeal.Hand.opsHead (launchContents m' c) (Proc.devRef .tc Cert.ReferenceIdeal.main_arg3))
        (after Cert.ReferenceIdeal.Hand.opsHead (launchContents m' c) (Proc.devRef .tc Cert.ReferenceIdeal.main_arg4))
        (after Cert.ReferenceIdeal.Hand.opsHead (launchContents m' c) (Proc.devRef .tc Cert.ReferenceIdeal.main_arg5)) i
      = (Cert.KernelIdeal.Gen.dats (F := Ideal) m 0 c).arrAt 4 Cert.KernelIdeal.cfg0.N i := by
  obtain ⟨e, r, j, rfl⟩ : ∃ (e : Fin 8) (r : Fin 1024) (j : Fin 2048), i = ValueIdx.ix3 e r j := ⟨i 0, i 1, i 2, ValueIdx.eq_ix3 i⟩
  rw [Cert.ReferenceIdeal.Hand.mid_value]
  refine Eq.trans ?_ (Cert.KernelIdeal.Hand.region_value m c e r j).symm
  rw [← Cert.Bridge.head_buf m m' c h0 h1, Cert.ReferenceIdeal.Hand.head_keeps_arg3, Cert.ReferenceIdeal.Hand.head_keeps_arg4,
    Cert.ReferenceIdeal.Hand.head_keeps_arg5]
  unfold Cert.Spec.ffn Cert.Spec.at3
  have e3 : ∀ a b, launchContents m' c (Proc.devRef .tc Cert.ReferenceIdeal.main_arg3) (ValueIdx.ix3 e a b)
      = Cert.KernelIdeal.Gen.V m c Cert.KernelIdeal.main_v73 (ValueIdx.ix3 e a b) := fun a b => by
    rw [Cert.Bridge.head_gw]; exact congrFun h3 _
  have e4 : ∀ a b, launchContents m' c (Proc.devRef .tc Cert.ReferenceIdeal.main_arg4) (ValueIdx.ix3 e a b)
      = Cert.KernelIdeal.Gen.V m c Cert.KernelIdeal.main_v74 (ValueIdx.ix3 e a b) := fun a b => by
    rw [Cert.Bridge.head_uw]; exact congrFun h4 _
  have e5 : ∀ b, launchContents m' c (Proc.devRef .tc Cert.ReferenceIdeal.main_arg5) (ValueIdx.ix3 e j b)
      = Cert.KernelIdeal.Gen.V m c Cert.KernelIdeal.main_v75 (ValueIdx.ix3 e j b) := fun b => by
    rw [Cert.Bridge.head_dw]; exact congrFun h5 _
  simp only [e3, e4, e5]

/-- Over the extended reals, from memories that agree on the arguments, both programs run and end with the same
    result: the combine of the experts' output and the four routing arrays. -/
theorem algebraic : Cert.algebraic_KernelIdeal_ReferenceIdeal := by
  intro m ρ m' ρ' _ hagree
  refine ⟨fun c => Cert.KernelIdeal.Hand.combine (F := Ideal)
      ((Cert.KernelIdeal.Gen.dats (F := Ideal) m 0 c).arrAt 4 Cert.KernelIdeal.cfg0.N)
      (Cert.KernelIdeal.Gen.V m c Cert.KernelIdeal.main_v12) (Cert.KernelIdeal.Gen.V m c Cert.KernelIdeal.main_v49)
      (Cert.KernelIdeal.Gen.V m c Cert.KernelIdeal.main_v19) (Cert.KernelIdeal.Gen.V m c Cert.KernelIdeal.main_v26), ?_, ?_⟩
  · refine (θ_run Cert.KernelIdeal.defs _ _).mono (fun _ h c => ⟨?_, ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).2 Cert.KernelIdeal.main_arg5 (Pipeline.mem_restRefs_of Cert.KernelIdeal.main_arg5 (by decide) (by decide))).trans (Cert.KernelIdeal.Gen.W_main_arg5 m (Cert.KernelIdeal.Gen.dats m) c)⟩)
      (Cert.KernelIdeal.Gen.run_main (F := Ideal) m ρ)
    exact ((h c).2 Cert.KernelIdeal.main_v101 (Pipeline.mem_restRefs_of Cert.KernelIdeal.main_v101 (by decide) (by decide))).trans
      (Cert.KernelIdeal.Hand.result_eq m c)
  · refine (θ_run Cert.ReferenceIdeal.defs _ _).mono (fun _ h c => ⟨?_, (h c Cert.ReferenceIdeal.main_arg0).trans (Cert.ReferenceIdeal.Hand.keeps_arg0 _),
      (h c Cert.ReferenceIdeal.main_arg1).trans (Cert.ReferenceIdeal.Hand.keeps_arg1 _),
      (h c Cert.ReferenceIdeal.main_arg2).trans (Cert.ReferenceIdeal.Hand.keeps_arg2 _),
      (h c Cert.ReferenceIdeal.main_arg3).trans (Cert.ReferenceIdeal.Hand.keeps_arg3 _),
      (h c Cert.ReferenceIdeal.main_arg4).trans (Cert.ReferenceIdeal.Hand.keeps_arg4 _),
      (h c Cert.ReferenceIdeal.main_arg5).trans (Cert.ReferenceIdeal.Hand.keeps_arg5 _)⟩)
      (Cert.ReferenceIdeal.Hand.run (F := Ideal) m' ρ')
    refine (h c Cert.ReferenceIdeal.main_v104).trans ?_
    rw [Cert.ReferenceIdeal.Hand.result_of_head, combine_eq,
      ← Cert.Bridge.head_eid m m' c (hagree c).2.1, ← Cert.Bridge.head_pos m m' c (hagree c).2.1,
      ← Cert.Bridge.head_tok m m' c (hagree c).2.1, ← Cert.Bridge.head_gate m m' c (hagree c).2.1 (hagree c).2.2.1]
    refine congrArg (fun d => Cert.KernelIdeal.Hand.combine (F := Ideal) d _ _ _ _) ?_
    funext i
    exact mid_eq_region m m' c (hagree c).1 (hagree c).2.1 (hagree c).2.2.2.1 (hagree c).2.2.2.2.1 (hagree c).2.2.2.2.2 i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
